-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S1600000 32) (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 4294867296#32
  let main_v24 : IVec S1600000 32 := broadcastInDim S1600000 ![] bcast_S_S1600000 main_c_8
  let main_v25 : IVec S1600000 1 := cmpi .sge main_arg1 main_v24
  let main_c_9 : IVec S_ 32 := constantI S_ 32 100000#32
  let main_v26 : IVec S1600000 32 := broadcastInDim S1600000 ![] bcast_S_S1600000 main_c_9
  let main_v27 : IVec S1600000 1 := cmpi .slt main_arg1 main_v26
  let main_v28 : IVec S1600000 1 := andi main_v25 main_v27
  let main_c_10 : IVec S_ 1 := constantI S_ 1 1#1
  let main_v29 : IVec S_ 1 := (fun x v => Host.reduce IntOp.andi x v reducesTo_S1600000_S_d0 h_S_) main_v28 main_c_10
  let main_v30 : IVec S_ 1 := andi main_v23 main_v29
  main_v30

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1600000x128 : Shape := ⟨2, ![1600000, 128]⟩
abbrev S100000x64 : Shape := ⟨2, ![100000, 64]⟩
abbrev S5000x64 : Shape := ⟨2, ![5000, 64]⟩
abbrev S1600000x64 : Shape := ⟨2, ![1600000, 64]⟩

abbrev nBuf : Space → Nat
  | .hbm => 105
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S128x128, .bf16⟩
  | .hbm, ⟨44, _⟩ => ⟨S128x64, .bf16⟩
  | .hbm, ⟨45, _⟩ => ⟨S1x128, .f32⟩
  | .hbm, ⟨46, _⟩ => ⟨S1x64, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1, .i32⟩
  | .hbm, ⟨57, _⟩ => ⟨S_, .i32⟩
  | .hbm, ⟨58, _⟩ => ⟨S1600000x1, .i32⟩
  | .hbm, ⟨59, _⟩ => ⟨S1600000x1, .i1⟩
  | .hbm, ⟨60, _⟩ => ⟨S1x1, .i32⟩
  | .hbm, ⟨61, _⟩ => ⟨S1600000x1, .i32⟩
  | .hbm, ⟨62, _⟩ => ⟨S1600000x1, .i1⟩
  | .hbm, ⟨63, _⟩ => ⟨S1600000x1, .i1⟩
  | .hbm, ⟨64, _⟩ => ⟨S_, .i1⟩
  | .hbm, ⟨65, _⟩ => ⟨S1600000, .i1⟩
  | .hbm, ⟨66, _⟩ => ⟨S1600000x128, .f32⟩
  | .hbm, ⟨67, _⟩ => ⟨S1600000x128, .i1⟩
  | .hbm, ⟨68, _⟩ => ⟨S_, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x128, .f32⟩
  | .hbm, ⟨76, _⟩ => ⟨S100000x64, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1, .i32⟩
  | .hbm, ⟨86, _⟩ => ⟨S_, .i32⟩
  | .hbm, ⟨87, _⟩ => ⟨S1600000x1, .i32⟩
  | .hbm, ⟨88, _⟩ => ⟨S1600000x1, .i1⟩
  | .hbm, ⟨89, _⟩ => ⟨S1x1, .i32⟩
  | .hbm, ⟨90, _⟩ => ⟨S1600000x1, .i32⟩
  | .hbm, ⟨91, _⟩ => ⟨S1600000x1, .i1⟩
  | .hbm, ⟨92, _⟩ => ⟨S1600000x1, .i1⟩
  | .hbm, ⟨93, _⟩ => ⟨S_, .i1⟩
  | .hbm, ⟨94, _⟩ => ⟨S1600000, .i1⟩
  | .hbm, ⟨95, _⟩ => ⟨S1600000x64, .f32⟩
  | .hbm, ⟨96, _⟩ => ⟨S1600000x64, .i1⟩
  | .hbm, ⟨97, _⟩ => ⟨S_, .f32⟩
  | .hbm, ⟨98, _⟩ => ⟨S1600000x64, .f32⟩
  | .hbm, ⟨99, _⟩ => ⟨S1600000x64, .f32⟩
  | .hbm, ⟨100, _⟩ => ⟨S_, .f32⟩
  | .hbm, ⟨101, _⟩ => ⟨S100000x64, .f32⟩
  | .hbm, ⟨102, _⟩ => ⟨S1600000x1, .i32⟩
  | .hbm, ⟨103, _⟩ => ⟨S100000x64, .f32⟩
  | .hbm, ⟨104, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .bf16⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x64, .bf16⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v27 : Ref sig .tc := ⟨.hbm, 70, rfl⟩
abbrev main_cst_9 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v33 : Ref sig .tc := ⟨.hbm, 99, rfl⟩
abbrev main_cst_10 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  shapeCasts_S128_S1x128 : S128.ShapeCasts S1x128
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x64, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S100000x1, .f32⟩
  | .hbm, ⟨85, _⟩ => ⟨S100000x64, .f32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c : Ref sig .tc := ⟨.hbm, 45, rfl⟩
abbrev main_v24 : Ref sig .tc := ⟨.hbm, 46, rfl⟩
abbrev main_v25 : Ref sig .tc := ⟨.hbm, 47, rfl⟩
abbrev main_c_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_13 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.HostSpec.lean ====
/-
  The host-side values of the idealized kernel program, named once.  A node's norm is the inverse square root of its
  degree (the number of edges whose index entry is that node, counted by a scatter-add of ones; a node of degree zero gets
  one).  The edge source indices are first wrapped (a negative entry has the node count added), laid out as a column,
  and each message row is the source node's row where the wrapped index lies in [0, 99999], and the fill word otherwise.
-/
import proofs.«425124_j8727373545893_1_alg».proof.Proof.Gen.KernelIdeal

noncomputable section

namespace Cert.KernelIdeal.HostSpec

open Idealize.ShloMosaic Cert.KernelIdeal Cert.KernelIdeal.Gen

variable {F : FTy → Type} [FloatOps F]

/-- The degree of every node under an edge index vector: ones scattered-and-added into zeros. -/
def deg (idx : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- The norm vector: where the degree is positive, the inverse square root of the degree clamped below by one; else one. -/
def nrm (idx : IVec S1600000 32) : FVec F S100000 .f32 :=
  select (cmpf (F := F) .ogt (deg idx) (broadcastInDim S100000 ![] bcast_S_S100000 (constant S_ .f32 0x00000000#32)))
    (Host.rsqrt (maximumf (deg idx) (broadcastInDim S100000 ![] bcast_S_S100000 (constant S_ .f32 0x3F800000#32))))
    (broadcastInDim S100000 ![] bcast_S_S100000 (id (constant S_ .f32 0x3F800000#32)))

/-- The source indices with negative entries wrapped by the node count. -/
def wrapped (a1 : IVec S1600000 32) : IVec S1600000 32 :=
  select (cmpi .slt a1 (broadcastInDim S1600000 ![] bcast_S_S1600000 (constantI S_ 32 0#32)))
    (addi a1 (broadcastInDim S1600000 ![] bcast_S_S1600000 (constantI S_ 32 100000#32))) a1

/-- The wrapped indices as the [edges × 1] column a gather reads its start indices from. -/
def wrappedCol (a1 : IVec S1600000 32) : IVec S1600000x1 32 :=
  broadcastInDim S1600000x1 ![0] bcast_S1600000_S1600000x1_0 (wrapped a1)

/-- Per edge: is the index column's entry in [0, 99999]? -/
def inRange (i5 : IVec S1600000x1 32) : IVec S1600000 1 :=
  Host.reduce IntOp.andi
    (andi (cmpi .sge i5 (broadcastInDim S1600000x1 ![] bcast_S_S1600000x1 (constantI S_ 32 0#32)))
      (cmpi .sle i5 (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The message rows of width 128: the gathered row where the index is in range, the fill word elsewhere. -/
def take128 (X : FVec F S100000x128 .f32) (a1 : IVec S1600000 32) : FVec F S1600000x128 .f32 :=
  select (broadcastInDim S1600000x128 ![0] bcast_S1600000_S1600000x128_0 (inRange (wrappedCol a1)))
    (Host.gather gather_S100000x128_S1600000x1_S1600000x128_1_0_n_n_0_1_1128 X (wrappedCol a1))
    (broadcastInDim S1600000x128 ![] bcast_S_S1600000x128 (constant S_ .f32 0x7FC00000#32))

/-- The message rows of width 64. -/
def take64 (X : FVec F S100000x64 .f32) (a1 : IVec S1600000 32) : FVec F S1600000x64 .f32 :=
  select (broadcastInDim S1600000x64 ![0] bcast_S1600000_S1600000x64_0 (inRange (wrappedCol a1)))
    (Host.gather gather_S100000x64_S1600000x1_S1600000x64_1_0_n_n_0_1_164 X (wrappedCol a1))
    (broadcastInDim S1600000x64 ![] bcast_S_S1600000x64 (constant S_ .f32 0x7FC00000#32))

/-- Messages summed per destination node, width 128. -/
def agg128 (msg : FVec F S1600000x128 .f32) (a2 : IVec S1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 a2) msg

/-- Messages summed per destination node, width 64. -/
def agg64 (msg : FVec F S1600000x64 .f32) (a2 : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 a2) msg

end Cert.KernelIdeal.HostSpec

end
-- ==== Proof.TakeRead.lean ====
/-
  The two host stretches that gather message rows, read at their result for ANY buffer contents at their entry: the result
  buffer holds the masked take (the wrapped index column, the in-range mask, the gather, the select against the fill word)
  of the array gathered from and of the source index vector as the stretch finds them.  Each stretch is read in four short
  pieces — the wrapped column; the two range compares; the mask; the gather and select — joined by the fold's
  concatenation law.
-/
import proofs.«425124_j8727373545893_1_alg».proof.Proof.Gen.KernelIdeal.Frame
import proofs.«425124_j8727373545893_1_alg».proof.Proof.HostSpec
import Idealize.ShloMosaic.Lib.StableHlo.Run

set_option maxRecDepth 16384

noncomputable section

namespace Cert.KernelIdeal.TakeRead

open Idealize.ShloMosaic Idealize.ShloMosaic.TcCoe Idealize.SL.Sem Idealize.ShloMosaic.StableHlo
open Cert.KernelIdeal Cert.KernelIdeal.Gen

variable {F : FTy → Type} [FloatOps F]
variable (V : Valuation τ sig (Elt F))

/-! ## The take of width 128 -/

abbrev ops1A : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S1600000, .i32⟩) (broadcastInDim S1600000 ![] bcast_S_S1600000),
    StableHlo.TRef.binary (.of main_arg1 : StableHlo.TRef sig ⟨S1600000, .i32⟩) (.of main_call2_v0 : StableHlo.TRef sig ⟨S1600000, .i32⟩) (.of main_call2_v1 : StableHlo.TRef sig ⟨S1600000, .i1⟩) (cmpi .slt),
    StableHlo.TRef.nullary (.of main_call2_c_0 : StableHlo.TRef sig ⟨S_, .i32⟩) (constantI S_ 32 100000#32),
    StableHlo.TRef.unary (.of main_call2_c_0 : StableHlo.TRef sig ⟨S_, .i32⟩) (.of main_call2_v2 : StableHlo.TRef sig ⟨S1600000, .i32⟩) (broadcastInDim S1600000 ![] bcast_S_S1600000),
    StableHlo.TRef.binary (.of main_arg1 : StableHlo.TRef sig ⟨S1600000, .i32⟩) (.of main_call2_v2 : StableHlo.TRef sig ⟨S1600000, .i32⟩) (.of main_call2_v3 : StableHlo.TRef sig ⟨S1600000, .i32⟩) addi,
    StableHlo.TRef.ternary (.of main_call2_v1 : StableHlo.TRef sig ⟨S1600000, .i1⟩) (.of main_call2_v3 : StableHlo.TRef sig ⟨S1600000, .i32⟩) (.of main_arg1 : StableHlo.TRef sig ⟨S1600000, .i32⟩) (.of main_call2_v4 : StableHlo.TRef sig ⟨S1600000, .i32⟩) select,
    StableHlo.TRef.unary main_call2_call0.v0 (.of main_call2_v5 : StableHlo.TRef sig ⟨S1600000x1, .i32⟩) (broadcastInDim S1600000x1 ![0] bcast_S1600000_S1600000x1_0) ]
abbrev ops1B1 : List (HloOp τ sig (Elt F)) :=
  [ StableHlo.TRef.nullary (.of main_call2_c_1 : StableHlo.TRef sig ⟨S1, .i32⟩) (constantI S1 32 99999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S1600000x1, .i32⟩) (broadcastInDim S1600000x1 ![] bcast_S_S1600000x1),
    StableHlo.TRef.binary (.of main_call2_v5 : StableHlo.TRef sig ⟨S1600000x1, .i32⟩) (.of main_call2_v6 : StableHlo.TRef sig ⟨S1600000x1, .i32⟩) (.of main_call2_v7 : StableHlo.TRef sig ⟨S1600000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S1600000x1, .i32⟩) (broadcastInDim S1600000x1 ![0, 1] bcast_S1x1_S1600000x1_0_1),
    StableHlo.TRef.binary (.of main_call2_v5 : StableHlo.TRef sig ⟨S1600000x1, .i32⟩) (.of main_call2_v9 : StableHlo.TRef sig ⟨S1600000x1, .i32⟩) (.of main_call2_v10 : StableHlo.TRef sig ⟨S1600000x1, .i1⟩) (cmpi .sle) ]
abbrev ops1B2 : List (HloOp τ sig (Elt F)) :=
  [ StableHlo.TRef.binary (.of main_call2_v7 : StableHlo.TRef sig ⟨S1600000x1, .i1⟩) (.of main_call2_v10 : StableHlo.TRef sig ⟨S1600000x1, .i1⟩) (.of main_call2_v11 : StableHlo.TRef sig ⟨S1600000x1, .i1⟩) andi,
    StableHlo.TRef.nullary (.of main_call2_c_3 : StableHlo.TRef sig ⟨S_, .i1⟩) (constantI S_ 1 1#1),
    StableHlo.TRef.binary (.of main_call2_v11 : StableHlo.TRef sig ⟨S1600000x1, .i1⟩) (.of main_call2_c_3 : StableHlo.TRef sig ⟨S_, .i1⟩) (.of main_call2_v12 : StableHlo.TRef sig ⟨S1600000, .i1⟩) (fun x v => Host.reduce IntOp.andi x v reducesTo_S1600000x1_S1600000_d1 h_S_) ]
abbrev ops1C : List (HloOp τ sig (Elt F)) :=
  [ StableHlo.TRef.binary (.of main_v26 : StableHlo.TRef sig ⟨S100000x128, .f32⟩) (.of main_call2_v5 : StableHlo.TRef sig ⟨S1600000x1, .i32⟩) (.of main_call2_v13 : StableHlo.TRef sig ⟨S1600000x128, .f32⟩) (fun x i => Host.gather gather_S100000x128_S1600000x1_S1600000x128_1_0_n_n_0_1_1128 x i),
    StableHlo.TRef.unary (.of main_call2_v12 : StableHlo.TRef sig ⟨S1600000, .i1⟩) (.of main_call2_v14 : StableHlo.TRef sig ⟨S1600000x128, .i1⟩) (broadcastInDim S1600000x128 ![0] bcast_S1600000_S1600000x128_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S1600000x128, .f32⟩) (broadcastInDim S1600000x128 ![] bcast_S_S1600000x128),
    StableHlo.TRef.ternary (.of main_call2_v14 : StableHlo.TRef sig ⟨S1600000x128, .i1⟩) (.of main_call2_v13 : StableHlo.TRef sig ⟨S1600000x128, .f32⟩) (.of main_call2_v15 : StableHlo.TRef sig ⟨S1600000x128, .f32⟩) (.of main_v27 : StableHlo.TRef sig ⟨S1600000x128, .f32⟩) select ]
theorem split1 : (hostOps1 : List (HloOp τ sig (Elt F))) = ops1A ++ (ops1B1 ++ (ops1B2 ++ ops1C)) := rfl

theorem A1_v5 : after ops1A V (Proc.devRef .tc main_call2_v5) = HostSpec.wrappedCol (V (Proc.devRef .tc main_arg1)) := by
  after_results_simp <;> (try simp only [TRef.ofBuf, TRef.toBuf, cast_eq]) <;> rfl
theorem A1_keep_v26 : after ops1A V (Proc.devRef .tc main_v26) = V (Proc.devRef .tc main_v26) := by
  after_results_simp <;> (try simp only [TRef.ofBuf, TRef.toBuf, cast_eq]) <;> rfl
theorem A1_keep_arg2 : after ops1A V (Proc.devRef .tc main_arg2) = V (Proc.devRef .tc main_arg2) := by
  after_results_simp <;> (try simp only [TRef.ofBuf, TRef.toBuf, cast_eq]) <;> rfl
theorem B11_v7 : after ops1B1 V (Proc.devRef .tc main_call2_v7) = cmpi .sge (V (Proc.devRef .tc main_call2_v5)) (broadcastInDim S1600000x1 ![] bcast_S_S1600000x1 (constantI S_ 32 0#32)) := by
  after_results_simp <;> (try simp only [TRef.ofBuf, TRef.toBuf, cast_eq]) <;> rfl
theorem B11_v10 : after ops1B1 V (Proc.devRef .tc main_call2_v10) = cmpi .sle (V (Proc.devRef .tc main_call2_v5)) (broadcastInDim S1600000x1 ![0, 1] bcast_S1x1_S1600000x1_0_1 (broadcastInDim S1x1 ![1] bcast_S1_S1x1_1 (constantI S1 32 99999#32))) := by
  after_results_simp <;> (try simp only [TRef.ofBuf, TRef.toBuf, cast_eq]) <;> rfl
theorem B11_keep_call2_v5 : after ops1B1 V (Proc.devRef .tc main_call2_v5) = V (Proc.devRef .tc main_call2_v5) := by
  after_results_simp <;> (try simp only [TRef.ofBuf, TRef.toBuf, cast_eq]) <;> rfl
theorem B11_keep_v26 : after ops1B1 V (Proc.devRef .tc main_v26) = V (Proc.devRef .tc main_v26) := by
  after_results_simp <;> (try simp only [TRef.ofBuf, TRef.toBuf, cast_eq]) <;> rfl
theorem B11_keep_arg2 : after ops1B1 V (Proc.devRef .tc main_arg2) = V (Proc.devRef .tc main_arg2) := by
  after_results_simp <;> (try simp only [TRef.ofBuf, TRef.toBuf, cast_eq]) <;> rfl
theorem B21_v12 : after ops1B2 V (Proc.devRef .tc main_call2_v12) = Host.reduce IntOp.andi (andi (V (Proc.devRef .tc main_call2_v7)) (V (Proc.devRef .tc main_call2_v10))) (constantI S_ 1 1#1) reducesTo_S1600000x1_S1600000_d1 h_S_ := by
  after_results_simp <;> (try simp only [TRef.ofBuf, TRef.toBuf, cast_eq]) <;> rfl
theorem B21_keep_call2_v5 : after ops1B2 V (Proc.devRef .tc main_call2_v5) = V (Proc.devRef .tc main_call2_v5) := by
  after_results_simp <;> (try simp only [TRef.ofBuf, TRef.toBuf, cast_eq]) <;> rfl
theorem B21_keep_v26 : after ops1B2 V (Proc.devRef .tc main_v26) = V (Proc.devRef .tc main_v26) := by
  after_results_simp <;> (try simp only [TRef.ofBuf, TRef.toBuf, cast_eq]) <;> rfl
theorem B21_keep_arg2 : after ops1B2 V (Proc.devRef .tc main_arg2) = V (Proc.devRef .tc main_arg2) := by
  after_results_simp <;> (try simp only [TRef.ofBuf, TRef.toBuf, cast_eq]) <;> rfl
theorem C1_out : after ops1C V (Proc.devRef .tc main_v27) = select (broadcastInDim S1600000x128 ![0] bcast_S1600000_S1600000x128_0 (V (Proc.devRef .tc main_call2_v12))) (Host.gather gather_S100000x128_S1600000x1_S1600000x128_1_0_n_n_0_1_1128 (V (Proc.devRef .tc main_v26)) (V (Proc.devRef .tc main_call2_v5))) (broadcastInDim S1600000x128 ![] bcast_S_S1600000x128 (constant S_ .f32 0x7FC00000#32)) := by
  after_results_simp <;> (try simp only [TRef.ofBuf, TRef.toBuf, cast_eq]) <;> rfl
theorem C1_keep_arg2 : after ops1C V (Proc.devRef .tc main_arg2) = V (Proc.devRef .tc main_arg2) := by
  after_results_simp <;> (try simp only [TRef.ofBuf, TRef.toBuf, cast_eq]) <;> rfl

/-- The whole stretch read at its result: the masked take of the array it gathers from. -/
theorem read_take128 : after hostOps1 V (Proc.devRef .tc main_v27) = HostSpec.take128 (V (Proc.devRef .tc main_v26)) (V (Proc.devRef .tc main_arg1)) := by
  rw [split1, StableHlo.after_append, StableHlo.after_append, StableHlo.after_append, C1_out, B21_v12, B21_keep_v26, B21_keep_call2_v5,
    B11_v7, B11_v10, B11_keep_v26, B11_keep_call2_v5, A1_v5, A1_keep_v26]
  rfl
theorem read_take128_arg2 : after hostOps1 V (Proc.devRef .tc main_arg2) = V (Proc.devRef .tc main_arg2) := by
  rw [split1, StableHlo.after_append, StableHlo.after_append, StableHlo.after_append, C1_keep_arg2, B21_keep_arg2, B11_keep_arg2, A1_keep_arg2]

/-! ## The take of width 64 -/

abbrev ops3A : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1600000, .i32⟩) (broadcastInDim S1600000 ![] bcast_S_S1600000),
    StableHlo.TRef.binary (.of main_arg1 : StableHlo.TRef sig ⟨S1600000, .i32⟩) (.of main_call3_v0 : StableHlo.TRef sig ⟨S1600000, .i32⟩) (.of main_call3_v1 : StableHlo.TRef sig ⟨S1600000, .i1⟩) (cmpi .slt),
    StableHlo.TRef.nullary (.of main_call3_c_0 : StableHlo.TRef sig ⟨S_, .i32⟩) (constantI S_ 32 100000#32),
    StableHlo.TRef.unary (.of main_call3_c_0 : StableHlo.TRef sig ⟨S_, .i32⟩) (.of main_call3_v2 : StableHlo.TRef sig ⟨S1600000, .i32⟩) (broadcastInDim S1600000 ![] bcast_S_S1600000),
    StableHlo.TRef.binary (.of main_arg1 : StableHlo.TRef sig ⟨S1600000, .i32⟩) (.of main_call3_v2 : StableHlo.TRef sig ⟨S1600000, .i32⟩) (.of main_call3_v3 : StableHlo.TRef sig ⟨S1600000, .i32⟩) addi,
    StableHlo.TRef.ternary (.of main_call3_v1 : StableHlo.TRef sig ⟨S1600000, .i1⟩) (.of main_call3_v3 : StableHlo.TRef sig ⟨S1600000, .i32⟩) (.of main_arg1 : StableHlo.TRef sig ⟨S1600000, .i32⟩) (.of main_call3_v4 : StableHlo.TRef sig ⟨S1600000, .i32⟩) select,
    StableHlo.TRef.unary main_call3_call0.v0 (.of main_call3_v5 : StableHlo.TRef sig ⟨S1600000x1, .i32⟩) (broadcastInDim S1600000x1 ![0] bcast_S1600000_S1600000x1_0) ]
abbrev ops3B1 : List (HloOp τ sig (Elt F)) :=
  [ StableHlo.TRef.nullary (.of main_call3_c_1 : StableHlo.TRef sig ⟨S1, .i32⟩) (constantI S1 32 99999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1600000x1, .i32⟩) (broadcastInDim S1600000x1 ![] bcast_S_S1600000x1),
    StableHlo.TRef.binary (.of main_call3_v5 : StableHlo.TRef sig ⟨S1600000x1, .i32⟩) (.of main_call3_v6 : StableHlo.TRef sig ⟨S1600000x1, .i32⟩) (.of main_call3_v7 : StableHlo.TRef sig ⟨S1600000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S1600000x1, .i32⟩) (broadcastInDim S1600000x1 ![0, 1] bcast_S1x1_S1600000x1_0_1),
    StableHlo.TRef.binary (.of main_call3_v5 : StableHlo.TRef sig ⟨S1600000x1, .i32⟩) (.of main_call3_v9 : StableHlo.TRef sig ⟨S1600000x1, .i32⟩) (.of main_call3_v10 : StableHlo.TRef sig ⟨S1600000x1, .i1⟩) (cmpi .sle) ]
abbrev ops3B2 : List (HloOp τ sig (Elt F)) :=
  [ StableHlo.TRef.binary (.of main_call3_v7 : StableHlo.TRef sig ⟨S1600000x1, .i1⟩) (.of main_call3_v10 : StableHlo.TRef sig ⟨S1600000x1, .i1⟩) (.of main_call3_v11 : StableHlo.TRef sig ⟨S1600000x1, .i1⟩) andi,
    StableHlo.TRef.nullary (.of main_call3_c_3 : StableHlo.TRef sig ⟨S_, .i1⟩) (constantI S_ 1 1#1),
    StableHlo.TRef.binary (.of main_call3_v11 : StableHlo.TRef sig ⟨S1600000x1, .i1⟩) (.of main_call3_c_3 : StableHlo.TRef sig ⟨S_, .i1⟩) (.of main_call3_v12 : StableHlo.TRef sig ⟨S1600000, .i1⟩) (fun x v => Host.reduce IntOp.andi x v reducesTo_S1600000x1_S1600000_d1 h_S_) ]
abbrev ops3C : List (HloOp τ sig (Elt F)) :=
  [ StableHlo.TRef.binary (.of main_v32 : StableHlo.TRef sig ⟨S100000x64, .f32⟩) (.of main_call3_v5 : StableHlo.TRef sig ⟨S1600000x1, .i32⟩) (.of main_call3_v13 : StableHlo.TRef sig ⟨S1600000x64, .f32⟩) (fun x i => Host.gather gather_S100000x64_S1600000x1_S1600000x64_1_0_n_n_0_1_164 x i),
    StableHlo.TRef.unary (.of main_call3_v12 : StableHlo.TRef sig ⟨S1600000, .i1⟩) (.of main_call3_v14 : StableHlo.TRef sig ⟨S1600000x64, .i1⟩) (broadcastInDim S1600000x64 ![0] bcast_S1600000_S1600000x64_0),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S1600000x64, .f32⟩) (broadcastInDim S1600000x64 ![] bcast_S_S1600000x64),
    StableHlo.TRef.ternary (.of main_call3_v14 : StableHlo.TRef sig ⟨S1600000x64, .i1⟩) (.of main_call3_v13 : StableHlo.TRef sig ⟨S1600000x64, .f32⟩) (.of main_call3_v15 : StableHlo.TRef sig ⟨S1600000x64, .f32⟩) (.of main_v33 : StableHlo.TRef sig ⟨S1600000x64, .f32⟩) select ]
theorem split3 : (hostOps3 : List (HloOp τ sig (Elt F))) = ops3A ++ (ops3B1 ++ (ops3B2 ++ ops3C)) := rfl

theorem A3_v5 : after ops3A V (Proc.devRef .tc main_call3_v5) = HostSpec.wrappedCol (V (Proc.devRef .tc main_arg1)) := by
  after_results_simp <;> (try simp only [TRef.ofBuf, TRef.toBuf, cast_eq]) <;> rfl
theorem A3_keep_v32 : after ops3A V (Proc.devRef .tc main_v32) = V (Proc.devRef .tc main_v32) := by
  after_results_simp <;> (try simp only [TRef.ofBuf, TRef.toBuf, cast_eq]) <;> rfl
theorem A3_keep_arg2 : after ops3A V (Proc.devRef .tc main_arg2) = V (Proc.devRef .tc main_arg2) := by
  after_results_simp <;> (try simp only [TRef.ofBuf, TRef.toBuf, cast_eq]) <;> rfl
theorem B13_v7 : after ops3B1 V (Proc.devRef .tc main_call3_v7) = cmpi .sge (V (Proc.devRef .tc main_call3_v5)) (broadcastInDim S1600000x1 ![] bcast_S_S1600000x1 (constantI S_ 32 0#32)) := by
  after_results_simp <;> (try simp only [TRef.ofBuf, TRef.toBuf, cast_eq]) <;> rfl
theorem B13_v10 : after ops3B1 V (Proc.devRef .tc main_call3_v10) = cmpi .sle (V (Proc.devRef .tc main_call3_v5)) (broadcastInDim S1600000x1 ![0, 1] bcast_S1x1_S1600000x1_0_1 (broadcastInDim S1x1 ![1] bcast_S1_S1x1_1 (constantI S1 32 99999#32))) := by
  after_results_simp <;> (try simp only [TRef.ofBuf, TRef.toBuf, cast_eq]) <;> rfl
theorem B13_keep_call3_v5 : after ops3B1 V (Proc.devRef .tc main_call3_v5) = V (Proc.devRef .tc main_call3_v5) := by
  after_results_simp <;> (try simp only [TRef.ofBuf, TRef.toBuf, cast_eq]) <;> rfl
theorem B13_keep_v32 : after ops3B1 V (Proc.devRef .tc main_v32) = V (Proc.devRef .tc main_v32) := by
  after_results_simp <;> (try simp only [TRef.ofBuf, TRef.toBuf, cast_eq]) <;> rfl
theorem B13_keep_arg2 : after ops3B1 V (Proc.devRef .tc main_arg2) = V (Proc.devRef .tc main_arg2) := by
  after_results_simp <;> (try simp only [TRef.ofBuf, TRef.toBuf, cast_eq]) <;> rfl
theorem B23_v12 : after ops3B2 V (Proc.devRef .tc main_call3_v12) = Host.reduce IntOp.andi (andi (V (Proc.devRef .tc main_call3_v7)) (V (Proc.devRef .tc main_call3_v10))) (constantI S_ 1 1#1) reducesTo_S1600000x1_S1600000_d1 h_S_ := by
  after_results_simp <;> (try simp only [TRef.ofBuf, TRef.toBuf, cast_eq]) <;> rfl
theorem B23_keep_call3_v5 : after ops3B2 V (Proc.devRef .tc main_call3_v5) = V (Proc.devRef .tc main_call3_v5) := by
  after_results_simp <;> (try simp only [TRef.ofBuf, TRef.toBuf, cast_eq]) <;> rfl
theorem B23_keep_v32 : after ops3B2 V (Proc.devRef .tc main_v32) = V (Proc.devRef .tc main_v32) := by
  after_results_simp <;> (try simp only [TRef.ofBuf, TRef.toBuf, cast_eq]) <;> rfl
theorem B23_keep_arg2 : after ops3B2 V (Proc.devRef .tc main_arg2) = V (Proc.devRef .tc main_arg2) := by
  after_results_simp <;> (try simp only [TRef.ofBuf, TRef.toBuf, cast_eq]) <;> rfl
theorem C3_out : after ops3C V (Proc.devRef .tc main_v33) = select (broadcastInDim S1600000x64 ![0] bcast_S1600000_S1600000x64_0 (V (Proc.devRef .tc main_call3_v12))) (Host.gather gather_S100000x64_S1600000x1_S1600000x64_1_0_n_n_0_1_164 (V (Proc.devRef .tc main_v32)) (V (Proc.devRef .tc main_call3_v5))) (broadcastInDim S1600000x64 ![] bcast_S_S1600000x64 (constant S_ .f32 0x7FC00000#32)) := by
  after_results_simp <;> (try simp only [TRef.ofBuf, TRef.toBuf, cast_eq]) <;> rfl
theorem C3_keep_arg2 : after ops3C V (Proc.devRef .tc main_arg2) = V (Proc.devRef .tc main_arg2) := by
  after_results_simp <;> (try simp only [TRef.ofBuf, TRef.toBuf, cast_eq]) <;> rfl

/-- The whole stretch read at its result: the masked take of the array it gathers from. -/
theorem read_take64 : after hostOps3 V (Proc.devRef .tc main_v33) = HostSpec.take64 (V (Proc.devRef .tc main_v32)) (V (Proc.devRef .tc main_arg1)) := by
  rw [split3, StableHlo.after_append, StableHlo.after_append, StableHlo.after_append, C3_out, B23_v12, B23_keep_v32, B23_keep_call3_v5,
    B13_v7, B13_v10, B13_keep_v32, B13_keep_call3_v5, A3_v5, A3_keep_v32]
  rfl
theorem read_take64_arg2 : after hostOps3 V (Proc.devRef .tc main_arg2) = V (Proc.devRef .tc main_arg2) := by
  rw [split3, StableHlo.after_append, StableHlo.after_append, StableHlo.after_append, C3_keep_arg2, B23_keep_arg2, B13_keep_arg2, A3_keep_arg2]

/-! ## The two segment sums -/

theorem read_agg128 : after hostOps1_1 V (Proc.devRef .tc main_v30) = HostSpec.agg128 (V (Proc.devRef .tc main_v27)) (V (Proc.devRef .tc main_arg2)) := by
  after_results_simp <;> rfl
theorem read_agg64 : after hostOps3_1 V (Proc.devRef .tc main_v36) = HostSpec.agg64 (V (Proc.devRef .tc main_v33)) (V (Proc.devRef .tc main_arg2)) := by
  after_results_simp <;> rfl

end Cert.KernelIdeal.TakeRead

end
-- ==== Proof.HostVals.lean ====
/-
  What the buffers the four pipelined regions read hold at each segment boundary of the idealized kernel program, walked
  from the launch memory: the host stretches' results read off their operations, a region's input arrays and the buffers
  it does not touch carried through it, a region's output array at what its write-backs leave.
-/
import proofs.«425124_j8727373545893_1_alg».proof.Proof.Gen.KernelIdeal.Frame
import proofs.«425124_j8727373545893_1_alg».proof.Proof.HostSpec
import proofs.«425124_j8727373545893_1_alg».proof.Proof.TakeRead
import Idealize.ShloMosaic.Lib.StableHlo.Run

set_option maxRecDepth 16384

noncomputable section

namespace Cert.KernelIdeal.HostVals

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- A buffer that no operation of a host stretch writes keeps its contents across the stretch: every operation's written
    buffer is another reference. -/
local macro "not_written" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## Before the first region: the norms, the narrowed weights, the bias rows -/

theorem W5_arg0 (c : Dev nD) : W5 m ρ c (Proc.devRef .tc main_arg0) = m ((c : Thread nD τ).loc main_arg0) := by
  have h5 : W5 m ρ c (Proc.devRef .tc main_arg0) = W4 m ρ c (Proc.devRef .tc main_arg0) := by not_written hostOps0_4
  have h4 : W4 m ρ c (Proc.devRef .tc main_arg0) = W3 m ρ c (Proc.devRef .tc main_arg0) := by not_written hostOps0_3
  have h3 : W3 m ρ c (Proc.devRef .tc main_arg0) = W2 m ρ c (Proc.devRef .tc main_arg0) := by not_written hostOps0_2
  have h2 : W2 m ρ c (Proc.devRef .tc main_arg0) = W1 m ρ c (Proc.devRef .tc main_arg0) := by not_written hostOps0_1
  have h1 : W1 m ρ c (Proc.devRef .tc main_arg0) = W0 m ρ c (Proc.devRef .tc main_arg0) := by not_written hostOps0
  exact h5.trans (h4.trans (h3.trans (h2.trans (h1.trans rfl))))
theorem W5_arg1 (c : Dev nD) : W5 m ρ c (Proc.devRef .tc main_arg1) = m ((c : Thread nD τ).loc main_arg1) := by
  have h5 : W5 m ρ c (Proc.devRef .tc main_arg1) = W4 m ρ c (Proc.devRef .tc main_arg1) := by not_written hostOps0_4
  have h4 : W4 m ρ c (Proc.devRef .tc main_arg1) = W3 m ρ c (Proc.devRef .tc main_arg1) := by not_written hostOps0_3
  have h3 : W3 m ρ c (Proc.devRef .tc main_arg1) = W2 m ρ c (Proc.devRef .tc main_arg1) := by not_written hostOps0_2
  have h2 : W2 m ρ c (Proc.devRef .tc main_arg1) = W1 m ρ c (Proc.devRef .tc main_arg1) := by not_written hostOps0_1
  have h1 : W1 m ρ c (Proc.devRef .tc main_arg1) = W0 m ρ c (Proc.devRef .tc main_arg1) := by not_written hostOps0
  exact h5.trans (h4.trans (h3.trans (h2.trans (h1.trans rfl))))
theorem W5_arg2 (c : Dev nD) : W5 m ρ c (Proc.devRef .tc main_arg2) = m ((c : Thread nD τ).loc main_arg2) := by
  have h5 : W5 m ρ c (Proc.devRef .tc main_arg2) = W4 m ρ c (Proc.devRef .tc main_arg2) := by not_written hostOps0_4
  have h4 : W4 m ρ c (Proc.devRef .tc main_arg2) = W3 m ρ c (Proc.devRef .tc main_arg2) := by not_written hostOps0_3
  have h3 : W3 m ρ c (Proc.devRef .tc main_arg2) = W2 m ρ c (Proc.devRef .tc main_arg2) := by not_written hostOps0_2
  have h2 : W2 m ρ c (Proc.devRef .tc main_arg2) = W1 m ρ c (Proc.devRef .tc main_arg2) := by not_written hostOps0_1
  have h1 : W1 m ρ c (Proc.devRef .tc main_arg2) = W0 m ρ c (Proc.devRef .tc main_arg2) := by not_written hostOps0
  exact h5.trans (h4.trans (h3.trans (h2.trans (h1.trans rfl))))
theorem W5_v10 (c : Dev nD) : W5 m ρ c (Proc.devRef .tc main_v10) = shapeCast S100000x1 (HostSpec.nrm (F := F) (m ((c : Thread nD τ).loc main_arg1))) shapeCasts_S100000_S100000x1 := by
  dsimp only [W5, W4, W3, W2, W1, W0]
  after_results_simp <;> (try simp only [TRef.ofBuf, TRef.toBuf, cast_eq]) <;> rfl
theorem W5_v21 (c : Dev nD) : W5 m ρ c (Proc.devRef .tc main_v21) = shapeCast S100000x1 (HostSpec.nrm (F := F) (m ((c : Thread nD τ).loc main_arg2))) shapeCasts_S100000_S100000x1 := by
  dsimp only [W5, W4, W3, W2, W1, W0]
  after_results_simp <;> (try simp only [TRef.ofBuf, TRef.toBuf, cast_eq]) <;> rfl
theorem W5_v22 (c : Dev nD) : W5 m ρ c (Proc.devRef .tc main_v22) = truncf .bf16 (m ((c : Thread nD τ).loc main_arg3)) bitsLt_bf16_f32 := by
  dsimp only [W5, W4, W3, W2, W1, W0]
  after_results_simp <;> (try simp only [TRef.ofBuf, TRef.toBuf, cast_eq]) <;> rfl
theorem W5_v23 (c : Dev nD) : W5 m ρ c (Proc.devRef .tc main_v23) = truncf .bf16 (m ((c : Thread nD τ).loc main_arg5)) bitsLt_bf16_f32 := by
  dsimp only [W5, W4, W3, W2, W1, W0]
  after_results_simp <;> (try simp only [TRef.ofBuf, TRef.toBuf, cast_eq]) <;> rfl
theorem W5_v24 (c : Dev nD) : W5 m ρ c (Proc.devRef .tc main_v24) = shapeCast S1x128 (m ((c : Thread nD τ).loc main_arg4)) shapeCasts_S128_S1x128 := by
  dsimp only [W5, W4, W3, W2, W1, W0]
  after_results_simp <;> (try simp only [TRef.ofBuf, TRef.toBuf, cast_eq]) <;> rfl
theorem W5_v25 (c : Dev nD) : W5 m ρ c (Proc.devRef .tc main_v25) = shapeCast S1x64 (m ((c : Thread nD τ).loc main_arg6)) shapeCasts_S64_S1x64 := by
  dsimp only [W5, W4, W3, W2, W1, W0]
  after_results_simp <;> (try simp only [TRef.ofBuf, TRef.toBuf, cast_eq]) <;> rfl

/-! ## Through the first region (it reads main_arg0, main_v10, main_v22 and writes main_v26) -/

theorem W6_v26 (c : Dev nD) : W6 m ρ c (Proc.devRef .tc main_v26) = (dat0 (V5 m ρ) c).arrAt 3 cfg0.N := W6_arr m ρ c 3
theorem W6_v10 (c : Dev nD) : W6 m ρ c (Proc.devRef .tc main_v10) = W5 m ρ c (Proc.devRef .tc main_v10) :=
  (W6_arr m ρ c 1).trans (((dat0 (V5 m ρ) c).arrAt_in 1 rfl _).trans (A_eq0 (V5 m ρ) c 1))
theorem W6_arg1 (c : Dev nD) : W6 m ρ c (Proc.devRef .tc main_arg1) = W5 m ρ c (Proc.devRef .tc main_arg1) := W6_of_ne m ρ c main_arg1 (by decide)
theorem W6_arg2 (c : Dev nD) : W6 m ρ c (Proc.devRef .tc main_arg2) = W5 m ρ c (Proc.devRef .tc main_arg2) := W6_of_ne m ρ c main_arg2 (by decide)
theorem W6_v21 (c : Dev nD) : W6 m ρ c (Proc.devRef .tc main_v21) = W5 m ρ c (Proc.devRef .tc main_v21) := W6_of_ne m ρ c main_v21 (by decide)
theorem W6_v23 (c : Dev nD) : W6 m ρ c (Proc.devRef .tc main_v23) = W5 m ρ c (Proc.devRef .tc main_v23) := W6_of_ne m ρ c main_v23 (by decide)
theorem W6_v24 (c : Dev nD) : W6 m ρ c (Proc.devRef .tc main_v24) = W5 m ρ c (Proc.devRef .tc main_v24) := W6_of_ne m ρ c main_v24 (by decide)
theorem W6_v25 (c : Dev nD) : W6 m ρ c (Proc.devRef .tc main_v25) = W5 m ρ c (Proc.devRef .tc main_v25) := W6_of_ne m ρ c main_v25 (by decide)

/-! ## The first gather and segment sum -/

theorem W8_v30 (c : Dev nD) : W8 m ρ c (Proc.devRef .tc main_v30)
    = HostSpec.agg128 (HostSpec.take128 (W6 m ρ c (Proc.devRef .tc main_v26)) (W6 m ρ c (Proc.devRef .tc main_arg1))) (W6 m ρ c (Proc.devRef .tc main_arg2)) := by
  show StableHlo.after hostOps1_1 (StableHlo.after hostOps1 (W6 m ρ c)) (Proc.devRef .tc main_v30) = _
  rw [TakeRead.read_agg128, TakeRead.read_take128, TakeRead.read_take128_arg2]
theorem W8_v21 (c : Dev nD) : W8 m ρ c (Proc.devRef .tc main_v21) = W6 m ρ c (Proc.devRef .tc main_v21) := by
  have h2 : W8 m ρ c (Proc.devRef .tc main_v21) = W7 m ρ c (Proc.devRef .tc main_v21) := by not_written hostOps1_1
  have h1 : W7 m ρ c (Proc.devRef .tc main_v21) = W6 m ρ c (Proc.devRef .tc main_v21) := by not_written hostOps1
  exact h2.trans h1
theorem W8_v24 (c : Dev nD) : W8 m ρ c (Proc.devRef .tc main_v24) = W6 m ρ c (Proc.devRef .tc main_v24) := by
  have h2 : W8 m ρ c (Proc.devRef .tc main_v24) = W7 m ρ c (Proc.devRef .tc main_v24) := by not_written hostOps1_1
  have h1 : W7 m ρ c (Proc.devRef .tc main_v24) = W6 m ρ c (Proc.devRef .tc main_v24) := by not_written hostOps1
  exact h2.trans h1
theorem W8_v10 (c : Dev nD) : W8 m ρ c (Proc.devRef .tc main_v10) = W6 m ρ c (Proc.devRef .tc main_v10) := by
  have h2 : W8 m ρ c (Proc.devRef .tc main_v10) = W7 m ρ c (Proc.devRef .tc main_v10) := by not_written hostOps1_1
  have h1 : W7 m ρ c (Proc.devRef .tc main_v10) = W6 m ρ c (Proc.devRef .tc main_v10) := by not_written hostOps1
  exact h2.trans h1
theorem W8_v23 (c : Dev nD) : W8 m ρ c (Proc.devRef .tc main_v23) = W6 m ρ c (Proc.devRef .tc main_v23) := by
  have h2 : W8 m ρ c (Proc.devRef .tc main_v23) = W7 m ρ c (Proc.devRef .tc main_v23) := by not_written hostOps1_1
  have h1 : W7 m ρ c (Proc.devRef .tc main_v23) = W6 m ρ c (Proc.devRef .tc main_v23) := by not_written hostOps1
  exact h2.trans h1
theorem W8_v25 (c : Dev nD) : W8 m ρ c (Proc.devRef .tc main_v25) = W6 m ρ c (Proc.devRef .tc main_v25) := by
  have h2 : W8 m ρ c (Proc.devRef .tc main_v25) = W7 m ρ c (Proc.devRef .tc main_v25) := by not_written hostOps1_1
  have h1 : W7 m ρ c (Proc.devRef .tc main_v25) = W6 m ρ c (Proc.devRef .tc main_v25) := by not_written hostOps1
  exact h2.trans h1
theorem W8_arg1 (c : Dev nD) : W8 m ρ c (Proc.devRef .tc main_arg1) = W6 m ρ c (Proc.devRef .tc main_arg1) := by
  have h2 : W8 m ρ c (Proc.devRef .tc main_arg1) = W7 m ρ c (Proc.devRef .tc main_arg1) := by not_written hostOps1_1
  have h1 : W7 m ρ c (Proc.devRef .tc main_arg1) = W6 m ρ c (Proc.devRef .tc main_arg1) := by not_written hostOps1
  exact h2.trans h1
theorem W8_arg2 (c : Dev nD) : W8 m ρ c (Proc.devRef .tc main_arg2) = W6 m ρ c (Proc.devRef .tc main_arg2) := by
  have h2 : W8 m ρ c (Proc.devRef .tc main_arg2) = W7 m ρ c (Proc.devRef .tc main_arg2) := by not_written hostOps1_1
  have h1 : W7 m ρ c (Proc.devRef .tc main_arg2) = W6 m ρ c (Proc.devRef .tc main_arg2) := by not_written hostOps1
  exact h2.trans h1

/-! ## Through the second region (it reads main_v30, main_v21, main_v24 and writes main_v31) -/

theorem W9_v31 (c : Dev nD) : W9 m ρ c (Proc.devRef .tc main_v31) = (dat1 (V8 m ρ) c).arrAt 3 cfg1.N := W9_arr m ρ c 3
theorem W9_v21 (c : Dev nD) : W9 m ρ c (Proc.devRef .tc main_v21) = W8 m ρ c (Proc.devRef .tc main_v21) :=
  (W9_arr m ρ c 1).trans (((dat1 (V8 m ρ) c).arrAt_in 1 rfl _).trans (A_eq1 (V8 m ρ) c 1))
theorem W9_v10 (c : Dev nD) : W9 m ρ c (Proc.devRef .tc main_v10) = W8 m ρ c (Proc.devRef .tc main_v10) := W9_of_ne m ρ c main_v10 (by decide)
theorem W9_v23 (c : Dev nD) : W9 m ρ c (Proc.devRef .tc main_v23) = W8 m ρ c (Proc.devRef .tc main_v23) := W9_of_ne m ρ c main_v23 (by decide)
theorem W9_v25 (c : Dev nD) : W9 m ρ c (Proc.devRef .tc main_v25) = W8 m ρ c (Proc.devRef .tc main_v25) := W9_of_ne m ρ c main_v25 (by decide)
theorem W9_arg1 (c : Dev nD) : W9 m ρ c (Proc.devRef .tc main_arg1) = W8 m ρ c (Proc.devRef .tc main_arg1) := W9_of_ne m ρ c main_arg1 (by decide)
theorem W9_arg2 (c : Dev nD) : W9 m ρ c (Proc.devRef .tc main_arg2) = W8 m ρ c (Proc.devRef .tc main_arg2) := W9_of_ne m ρ c main_arg2 (by decide)

/-! ## Through the third region (it reads main_v31, main_v10, main_v23 and writes main_v32) -/

theorem W10_v32 (c : Dev nD) : W10 m ρ c (Proc.devRef .tc main_v32) = (dat2 (V9 m ρ) c).arrAt 3 cfg2.N := W10_arr m ρ c 3
theorem W10_v31 (c : Dev nD) : W10 m ρ c (Proc.devRef .tc main_v31) = W9 m ρ c (Proc.devRef .tc main_v31) :=
  (W10_arr m ρ c 0).trans (((dat2 (V9 m ρ) c).arrAt_in 0 rfl _).trans (A_eq2 (V9 m ρ) c 0))
theorem W10_v21 (c : Dev nD) : W10 m ρ c (Proc.devRef .tc main_v21) = W9 m ρ c (Proc.devRef .tc main_v21) := W10_of_ne m ρ c main_v21 (by decide)
theorem W10_v25 (c : Dev nD) : W10 m ρ c (Proc.devRef .tc main_v25) = W9 m ρ c (Proc.devRef .tc main_v25) := W10_of_ne m ρ c main_v25 (by decide)
theorem W10_arg1 (c : Dev nD) : W10 m ρ c (Proc.devRef .tc main_arg1) = W9 m ρ c (Proc.devRef .tc main_arg1) := W10_of_ne m ρ c main_arg1 (by decide)
theorem W10_arg2 (c : Dev nD) : W10 m ρ c (Proc.devRef .tc main_arg2) = W9 m ρ c (Proc.devRef .tc main_arg2) := W10_of_ne m ρ c main_arg2 (by decide)

/-! ## The second gather and segment sum -/

theorem W12_v36 (c : Dev nD) : W12 m ρ c (Proc.devRef .tc main_v36)
    = HostSpec.agg64 (HostSpec.take64 (W10 m ρ c (Proc.devRef .tc main_v32)) (W10 m ρ c (Proc.devRef .tc main_arg1))) (W10 m ρ c (Proc.devRef .tc main_arg2)) := by
  show StableHlo.after hostOps3_1 (StableHlo.after hostOps3 (W10 m ρ c)) (Proc.devRef .tc main_v36) = _
  rw [TakeRead.read_agg64, TakeRead.read_take64, TakeRead.read_take64_arg2]
theorem W12_v21 (c : Dev nD) : W12 m ρ c (Proc.devRef .tc main_v21) = W10 m ρ c (Proc.devRef .tc main_v21) := by
  have h2 : W12 m ρ c (Proc.devRef .tc main_v21) = W11 m ρ c (Proc.devRef .tc main_v21) := by not_written hostOps3_1
  have h1 : W11 m ρ c (Proc.devRef .tc main_v21) = W10 m ρ c (Proc.devRef .tc main_v21) := by not_written hostOps3
  exact h2.trans h1
theorem W12_v25 (c : Dev nD) : W12 m ρ c (Proc.devRef .tc main_v25) = W10 m ρ c (Proc.devRef .tc main_v25) := by
  have h2 : W12 m ρ c (Proc.devRef .tc main_v25) = W11 m ρ c (Proc.devRef .tc main_v25) := by not_written hostOps3_1
  have h1 : W11 m ρ c (Proc.devRef .tc main_v25) = W10 m ρ c (Proc.devRef .tc main_v25) := by not_written hostOps3
  exact h2.trans h1
theorem W12_v31 (c : Dev nD) : W12 m ρ c (Proc.devRef .tc main_v31) = W10 m ρ c (Proc.devRef .tc main_v31) := by
  have h2 : W12 m ρ c (Proc.devRef .tc main_v31) = W11 m ρ c (Proc.devRef .tc main_v31) := by not_written hostOps3_1
  have h1 : W11 m ρ c (Proc.devRef .tc main_v31) = W10 m ρ c (Proc.devRef .tc main_v31) := by not_written hostOps3
  exact h2.trans h1

/-! ## Through the fourth region (it reads main_v36, main_v21, main_v25 and writes main_v37) -/

theorem W13_v37 (c : Dev nD) : W13 m ρ c (Proc.devRef .tc main_v37) = (dat3 (V12 m ρ) c).arrAt 3 cfg3.N := W13_arr m ρ c 3
theorem W13_v31 (c : Dev nD) : W13 m ρ c (Proc.devRef .tc main_v31) = W12 m ρ c (Proc.devRef .tc main_v31) := W13_of_ne m ρ c main_v31 (by decide)

end Cert.KernelIdeal.HostVals

end
-- ==== Proof.Spec.lean ====
/-
  What each of the four pipelined regions leaves in its output array, as ONE function of the three arrays it reads,
  index by index over the extended reals.  A "scaled linear" region computes, at row `r` and column `q`,
  `∑ k, (x[r,k] · n[r]) · w[k,q]` (the row scaled by its norm entry, then the weight matrix); an "affine" region computes
  `x[r,q] · n[r] + b[q]`, the first of the two followed by a maximum with zero.  The norm is a column [rows × 1], the bias
  a row [1 × cols].  Blocks of 5000 rows are a tiling detail: these functions do not see it.
-/
import proofs.«425124_j8727373545893_1_alg».proof.KernelIdeal
import Idealize.ShloMosaic.PureOps.Ideal

noncomputable section

namespace Cert.KernelIdeal.Spec

open Idealize.ShloMosaic Cert.KernelIdeal

/-- Row `r` of `j`, column `k`, in a [100000 × 128] array. -/
abbrev rowAt128 (j : S100000x128.Idx) (k : Fin 128) : S100000x128.Idx := fun a => match a with
  | ⟨0, _⟩ => ⟨(j 0).val, (j 0).isLt⟩
  | ⟨1, _⟩ => ⟨k.val, k.isLt⟩
/-- The same row read from a [100000 × 64] index. -/
abbrev rowAt64 (j : S100000x64.Idx) (k : Fin 128) : S100000x128.Idx := fun a => match a with
  | ⟨0, _⟩ => ⟨(j 0).val, (j 0).isLt⟩
  | ⟨1, _⟩ => ⟨k.val, k.isLt⟩
/-- The norm column's entry for the row of `j`. -/
abbrev col128 (j : S100000x128.Idx) : S100000x1.Idx := fun a => match a with
  | ⟨0, _⟩ => ⟨(j 0).val, (j 0).isLt⟩
  | ⟨1, _⟩ => ⟨0, Nat.one_pos⟩
abbrev col64 (j : S100000x64.Idx) : S100000x1.Idx := fun a => match a with
  | ⟨0, _⟩ => ⟨(j 0).val, (j 0).isLt⟩
  | ⟨1, _⟩ => ⟨0, Nat.one_pos⟩
/-- Row `k` of the weights, at the column of `j`. -/
abbrev wAt128 (j : S100000x128.Idx) (k : Fin 128) : S128x128.Idx := fun a => match a with
  | ⟨0, _⟩ => ⟨k.val, k.isLt⟩
  | ⟨1, _⟩ => ⟨(j 1).val, (j 1).isLt⟩
abbrev wAt64 (j : S100000x64.Idx) (k : Fin 128) : S128x64.Idx := fun a => match a with
  | ⟨0, _⟩ => ⟨k.val, k.isLt⟩
  | ⟨1, _⟩ => ⟨(j 1).val, (j 1).isLt⟩
/-- The bias row's entry for the column of `j`. -/
abbrev bias128 (j : S100000x128.Idx) : S1x128.Idx := fun a => match a with
  | ⟨0, _⟩ => ⟨0, Nat.one_pos⟩
  | ⟨1, _⟩ => ⟨(j 1).val, (j 1).isLt⟩
abbrev bias64 (j : S100000x64.Idx) : S1x64.Idx := fun a => match a with
  | ⟨0, _⟩ => ⟨0, Nat.one_pos⟩
  | ⟨1, _⟩ => ⟨(j 1).val, (j 1).isLt⟩

/-- The first scaled linear map, 128 → 128: `∑ k, (x[r,k] · n[r]) · w[k,q]`. -/
def lin128 (x : S100000x128.Idx → EReal) (n : S100000x1.Idx → EReal) (w : S128x128.Idx → EReal) : S100000x128.Idx → EReal :=
  fun j => ∑ k : Fin 128, (x (rowAt128 j k) * n (col128 j)) * w (wAt128 j k)

/-- The second scaled linear map, 128 → 64. -/
def lin64 (x : S100000x128.Idx → EReal) (n : S100000x1.Idx → EReal) (w : S128x64.Idx → EReal) : S100000x64.Idx → EReal :=
  fun j => ∑ k : Fin 128, (x (rowAt64 j k) * n (col64 j)) * w (wAt64 j k)

/-- Scale each row by its norm entry, add the bias row, keep the positive part (the maximum with the zero word's value). -/
def affRelu128 (x : S100000x128.Idx → EReal) (n : S100000x1.Idx → EReal) (b : S1x128.Idx → EReal) : S100000x128.Idx → EReal :=
  fun j => max (x j * n (col128 j) + b (bias128 j)) (Ideal.ofBits .f32 0x00000000#32)

/-- Scale each row by its norm entry and add the bias row. -/
def aff64 (x : S100000x64.Idx → EReal) (n : S100000x1.Idx → EReal) (b : S1x64.Idx → EReal) : S100000x64.Idx → EReal :=
  fun j => x j * n (col64 j) + b (bias64 j)

end Cert.KernelIdeal.Spec

end
-- ==== Proof.Region0.lean ====
import proofs.«425124_j8727373545893_1_alg».proof.Proof.Gen.KernelIdeal.Frame
import proofs.«425124_j8727373545893_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Cert.KernelIdeal Cert.KernelIdeal.Gen
open Idealize.ShloMosaic.ValueIdx

/-! ## The contraction of the 128 → 128 product, axis by axis

The product contracts the left operand's column axis with the right operand's row axis; the left operand's row and the
right operand's column are the output's. -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product with a zero accumulator, read at row `p` and column `q` of the block: the sum over the 128 shared
    coordinates of the left operand's row `p` against the right operand's column `q`. -/
theorem matmul_block_apply (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  show FloatOps.matmul dot_S5000x128_S128x128_S5000x128_1_0_0_1_n_n none a w (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's arithmetic at one entry of the block -/

/-- A column [5000 × 1] spread over 128 columns reads, at `(p, q)`, the column's entry for row `p`. -/
theorem spread_col_apply (v : S5000x1.Idx → EReal) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's result at row `p`, column `q` of its block: the row of the first operand, each entry scaled by the
    norm column's entry for that row, against column `q` of the weights. -/
theorem body_apply (x : Vec Ideal S5000x128 .f32) (n : Vec Ideal S5000x1 .f32) (w : Vec Ideal S128x128 .bf16) (p : Fin 5000) (q : Fin 128) :
    k0_pay1 (F := Ideal) x n w (ix2 p q) = ∑ k : Fin 128, (x (ix2 p k) * n (ix2 p (0 : Fin 1))) * w (ix2 k q) := by
  unfold k0_pay1
  rw [shapeCast_self, shapeCast_self, matmul_block_apply]
  refine Finset.sum_congr rfl fun k _ => ?_
  rw [truncf_apply, mulf_apply, spread_col_apply]

/-- Inside a block: row of `j` at column `k`; the norm column's entry for the row of `j`; row `k` of the weights at
    the column of `j`. -/
abbrev rowIn (j : S5000x128.Idx) (k : Fin 128) : S5000x128.Idx := ix2 (⟨(j 0).val, (j 0).isLt⟩ : Fin 5000) k
abbrev normIn (j : S5000x128.Idx) : S5000x1.Idx := ix2 (⟨(j 0).val, (j 0).isLt⟩ : Fin 5000) (0 : Fin 1)
abbrev weightIn (j : S5000x128.Idx) (k : Fin 128) : S128x128.Idx := ix2 k (⟨(j 1).val, (j 1).isLt⟩ : Fin 128)

/-- The same at an index of the block. -/
theorem body_at (x : Vec Ideal S5000x128 .f32) (n : Vec Ideal S5000x1 .f32) (w : Vec Ideal S128x128 .bf16) (j : S5000x128.Idx) :
    k0_pay1 (F := Ideal) x n w j = ∑ k : Fin 128, (x (rowIn j k) * n (normIn j)) * w (weightIn j k) := by
  obtain ⟨p, q, rfl⟩ : ∃ (p : Fin 5000) (q : Fin 128), j = ix2 p q := ⟨j 0, j 1, eq_ix2 j⟩
  exact body_apply x n w p q

/-- One term of the sum: an entry of the rows' array scaled by a norm entry, against a weight. -/
def summand (X : S100000x128.Idx → EReal) (N : S100000x1.Idx → EReal) (W : S128x128.Idx → EReal)
    (a : S100000x128.Idx) (b : S100000x1.Idx) (d : S128x128.Idx) : EReal := (X a * N b) * W d

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 20 points: the rows' window, the norm's window and the output's window sit at the point's
    own block of 5000 rows, at column block 0; the weights' window is the whole array at every point. -/
theorem block_indices : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0 :=
  (by decide +kernel : ∀ t : Fin grid0.N, _)

/-- Every one of the 20 row blocks is some point's. -/
theorem row_block_onto : ∀ b : Fin 20, ∃ t : Fin cfg0.N, win0_3.index t = ![b.val, 0] :=
  (by decide +kernel : ∀ b : Fin 20, ∃ t : Fin grid0.N, win0_3.index t = ![b.val, 0])

/-- What point `t` writes back is block `t` of the scaled linear map of the three arrays as the region finds them. -/
theorem flushed_eq (c : Dev nD) (t : Fin cfg0.N) :
    (dat0 (F := Ideal) V c).flushed 3 t
      = ((cfg0.win 3).blk t).view.read (Elt Ideal) (Spec.lin128 (V c main_arg0) (V c main_v10) (V c main_v22)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S5000x1) zero_offsets, View.ld_unit_zero (S := S128x128) zero_offsets]
  obtain ⟨e0, e1, e2, e3, e4, e5, e6⟩ := block_indices t
  funext j
  show k0_pay1 (F := Ideal) (iblk0 V c 0 t) (iblk0 V c 1 t) (iblk0 V c 2 t) j
    = ∑ k : Fin 128, summand (V c main_arg0) (V c main_v10) (V c main_v22) (Spec.rowAt128 (((cfg0.win 3).blk t).view.emb j) k)
        (Spec.col128 (((cfg0.win 3).blk t).view.emb j)) (Spec.wAt128 (((cfg0.win 3).blk t).view.emb j) k)
  rw [body_at]
  refine Finset.sum_congr rfl fun k _ => ?_
  show summand (V c main_arg0) (V c main_v10) (V c main_v22) (((cfg0.win 0).blk t).view.emb (rowIn j k))
        (((cfg0.win 1).blk t).view.emb (normIn j)) (((cfg0.win 2).blk t).view.emb (weightIn j k)) = _
  have hx : ((cfg0.win 0).blk t).view.emb (rowIn j k) = Spec.rowAt128 (((cfg0.win 3).blk t).view.emb j) k := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have hn : ((cfg0.win 1).blk t).view.emb (normIn j) = Spec.col128 (((cfg0.win 3).blk t).view.emb j) := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * 0 = 0; omega
  have hw : ((cfg0.win 2).blk t).view.emb (weightIn j k) = Spec.wAt128 (((cfg0.win 3).blk t).view.emb j) k := by
    funext a; apply Fin.ext
    match a with
    | ⟨0, _⟩ => show win0_2.index t (0 : Fin 2) * 128 + 1 * k.val = k.val; omega
    | ⟨1, _⟩ => show win0_2.index t (1 : Fin 2) * 128 + 1 * (j 1).val = win0_3.index t (1 : Fin 2) * 128 + 1 * (j 1).val; omega
  rw [hx, hn, hw]

/-- An index of the array is in point `t`'s block iff each coordinate is in the block's range on its axis. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v26).slice (win0_3.rect t)).set ↔ _
  rw [View.set_slice_whole, Rect.mem_set_unit]
  exact Iff.rfl

/-- Row `r` lies in the block of point `r / 5000`: the 20 blocks cover the array. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := row_block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the scaled linear map of the three arrays it read. -/
theorem final0 (c : Dev nD) : (dat0 (F := Ideal) V c).arrAt 3 cfg0.N = Spec.lin128 (V c main_arg0) (V c main_v10) (V c main_v22) :=
  (dat0 (F := Ideal) V c).arrAt_eq_of_cover 3 _ (fun t _ => flushed_eq V c t) covered

end Cert.KernelIdeal.Region0

end
-- ==== Proof.Region1.lean ====
/-
  The first affine region.  Every grid point t takes rows 5000·t … 5000·t + 4999 of a [100000 × 128] array, scales row r by
  the norm column's entry n[r], adds the bias row b[q], and keeps the maximum with the zero word's value.  Read index by
  index, what the region leaves in its output array is Spec.affRelu128 of the three arrays it reads.
-/
import proofs.«425124_j8727373545893_1_alg».proof.Proof.Gen.KernelIdeal.Frame
import proofs.«425124_j8727373545893_1_alg».proof.Proof.Spec
import Idealize.ShloMosaic.Lib.Pipeline.Value
import Idealize.ShloMosaic.Lib.ValueIdx
import Idealize.ShloMosaic.Lib.ValueLayout

noncomputable section

namespace Cert.KernelIdeal.Region1

open Idealize.ShloMosaic Idealize.ShloMosaic.TcCoe Idealize.SL.Sem Cert.KernelIdeal Cert.KernelIdeal.Gen
open Idealize.ShloMosaic.ValueIdx

/-! ## The body's value at one index of a block -/

/-- A column [a × 1] broadcast to [a × b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At row p and column q of a block: x[p,q] · n[p] + b[q], then the maximum with the zero word's value. -/
theorem pay_at (x0 : Vec Ideal S5000x128 .f32) (x1 : Vec Ideal S5000x1 .f32) (x2 : Vec Ideal S1x128 .f32)
    (p : Fin 5000) (q : Fin 128) :
    k1_pay1 (F := Ideal) x0 x1 x2 (ix2 p q)
      = max (x0 (ix2 p q) * x1 (ix2 p (0 : Fin 1)) + x2 (ix2 (0 : Fin 1) q)) (Ideal.ofBits .f32 0x00000000#32) := by
  unfold k1_pay1
  rw [maximumf_apply, addf_apply, mulf_apply, broadcast_apply, shapeCast_self, shapeCast_self, shapeCast_self,
    broadcastTo_a1_ab_apply, broadcastTo_1b_ab_apply]
  rfl

/-- The norm column's entry for the row of a block index. -/
abbrev normAt (j : S5000x128.Idx) : S5000x1.Idx := fun a => match a with
  | ⟨0, _⟩ => ⟨(j 0).val, (j 0).isLt⟩
  | ⟨1, _⟩ => ⟨0, Nat.one_pos⟩
/-- The bias row's entry for the column of a block index. -/
abbrev biasAt (j : S5000x128.Idx) : S1x128.Idx := fun a => match a with
  | ⟨0, _⟩ => ⟨0, Nat.one_pos⟩
  | ⟨1, _⟩ => ⟨(j 1).val, (j 1).isLt⟩

/-- The body's value as one function of a block index. -/
theorem pay_eq (x0 : Vec Ideal S5000x128 .f32) (x1 : Vec Ideal S5000x1 .f32) (x2 : Vec Ideal S1x128 .f32) :
    k1_pay1 (F := Ideal) x0 x1 x2
      = fun j => max (x0 j * x1 (normAt j) + x2 (biasAt j)) (Ideal.ofBits .f32 0x00000000#32) := by
  funext j
  obtain ⟨p, q, rfl⟩ : ∃ (p : Fin 5000) (q : Fin 128), j = ix2 p q := ⟨j 0, j 1, eq_ix2 j⟩
  rw [pay_at]
  have e1 : normAt (ix2 p q) = ix2 p (0 : Fin 1) := funext fun a => by
    match a with
    | ⟨0, _⟩ => rfl
    | ⟨1, _⟩ => rfl
  have e2 : biasAt (ix2 p q) = ix2 (0 : Fin 1) q := funext fun a => by
    match a with
    | ⟨0, _⟩ => rfl
    | ⟨1, _⟩ => rfl
  rw [e1, e2]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 20 grid points: the array read, the norm column and the output move with the point on
    the row axis and stay at block 0 on the other; the bias row is the whole array at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the affine map of the three arrays. -/
theorem flushed_eq (c : Dev nD) (t : Fin cfg1.N) :
    (dat1 (F := Ideal) V c).flushed 3 t
      = ((cfg1.win 3).blk t).view.read (Elt Ideal) (Spec.affRelu128 (V c main_v30) (V c main_v21) (V c main_v24)) := by
  show (cfg1.win 3).cut (grid1.coords t) ((dat1 (F := Ideal) V c).after 3 t) = _
  rw [after1_3]
  unfold out1_3
  rw [View.canon_unit_zero zero_offsets]
  simp only [View.ld_unit_zero (S := S5000x128) zero_offsets, View.ld_unit_zero (S := S5000x1) zero_offsets,
    View.ld_unit_zero (S := S1x128) zero_offsets]
  rw [pay_eq]
  obtain ⟨e00, e01, e10, e11, e20, e21, e30, e31⟩ := idx_facts t
  funext j
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (normAt j) = Spec.col128 (((cfg1.win 3).blk t).view.emb j) := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have h2 : ((cfg1.win 2).blk t).view.emb (biasAt j) = Spec.bias128 (((cfg1.win 3).blk t).view.emb j) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  have key : ∀ (a0 : S100000x128.Idx → EReal) (a1 : S100000x1.Idx → EReal) (a2 : S1x128.Idx → EReal),
      max (a0 (((cfg1.win 0).blk t).view.emb j) * a1 (((cfg1.win 1).blk t).view.emb (normAt j))
          + a2 (((cfg1.win 2).blk t).view.emb (biasAt j))) (Ideal.ofBits .f32 0x00000000#32)
        = max (a0 (((cfg1.win 3).blk t).view.emb j) * a1 (Spec.col128 (((cfg1.win 3).blk t).view.emb j))
          + a2 (Spec.bias128 (((cfg1.win 3).blk t).view.emb j))) (Ideal.ofBits .f32 0x00000000#32) := by
    intro a0 a1 a2
    rw [h0, h1, h2]
  exact key (V c main_v30) (V c main_v21) (V c main_v24)

/-- An index of the array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v31).slice (win1_3.rect t)).set ↔ _
  rw [View.set_slice_whole, Rect.mem_set_unit]
  exact Iff.rfl

/-- Row r of the array is in the block of point r / 5000. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  have ht : (i 0).val / 5000 < cfg1.N := by show _ < grid1.N; rw [hN]; omega
  obtain ⟨-, -, -, -, -, -, e30, e31⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e31]; omega

/-- The output array after the region: the affine map of the three arrays, at every index. -/
theorem final1 (c : Dev nD) :
    (dat1 (F := Ideal) V c).arrAt 3 cfg1.N = Spec.affRelu128 (V c main_v30) (V c main_v21) (V c main_v24) :=
  (dat1 (F := Ideal) V c).arrAt_eq_of_cover 3 (Spec.affRelu128 (V c main_v30) (V c main_v21) (V c main_v24))
    (fun t _ => flushed_eq V c t) (fun i => covered i)

end Cert.KernelIdeal.Region1

end
-- ==== Proof.Region2.lean ====
import proofs.«425124_j8727373545893_1_alg».proof.Proof.Gen.KernelIdeal.Frame
import proofs.«425124_j8727373545893_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Idealize.ShloMosaic Idealize.ShloMosaic.TcCoe Idealize.SL.Sem Cert.KernelIdeal Cert.KernelIdeal.Gen
open Idealize.ShloMosaic.ValueIdx

/-! ## The contraction of the 128 → 64 product, axis by axis

The product contracts the left operand's column axis (128 entries) with the right operand's row axis; the left
operand's row and the right operand's column (one of 64) are the output's. -/

theorem lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product with a zero accumulator, read at row `p` and column `q` of the block: the sum over the 128 shared
    coordinates of the left operand's row `p` against the right operand's column `q`. -/
theorem matmul_block_apply (a : FVec Ideal S5000x128 .bf16) (w : FVec Ideal S128x64 .bf16) (p : Fin 5000) (q : Fin 64) :
    matmul dot_S5000x128_S128x64_S5000x64_1_0_0_1_n_n none a w (constant S5000x64 .f32 0x00000000#32) (ix2 p q)
      = ∑ k : Fin 128, a (ix2 p k) * w (ix2 k q) := by
  show FloatOps.matmul dot_S5000x128_S128x64_S5000x64_1_0_0_1_n_n none a w (constant S5000x64 .f32 0x00000000#32) (ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's arithmetic at one entry of the block -/

/-- A column [5000 × 1] spread over 128 columns reads, at `(p, k)`, the column's entry for row `p`. -/
theorem spread_col_apply (v : S5000x1.Idx → EReal) (h : S5000x1.Broadcasts S5000x128) (p : Fin 5000) (k : Fin 128) :
    broadcastTo S5000x128 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The body's result at row `p`, column `q` of its block: the row of the first operand, each entry scaled by the
    norm column's entry for that row, against column `q` of the weights. -/
theorem body_apply (x : Vec Ideal S5000x128 .f32) (n : Vec Ideal S5000x1 .f32) (w : Vec Ideal S128x64 .bf16) (p : Fin 5000) (q : Fin 64) :
    k2_pay1 (F := Ideal) x n w (ix2 p q) = ∑ k : Fin 128, (x (ix2 p k) * n (ix2 p (0 : Fin 1))) * w (ix2 k q) := by
  unfold k2_pay1
  rw [shapeCast_self, shapeCast_self, shapeCast_self, matmul_block_apply]
  refine Finset.sum_congr rfl fun k _ => ?_
  rw [truncf_apply, mulf_apply, spread_col_apply]

/-- Inside a block: row of `j` at column `k` of the rows' block; the norm column's entry for the row of `j`; row
    `k` of the weights at the column of `j`. -/
abbrev rowIn (j : S5000x64.Idx) (k : Fin 128) : S5000x128.Idx := ix2 (⟨(j 0).val, (j 0).isLt⟩ : Fin 5000) k
abbrev normIn (j : S5000x64.Idx) : S5000x1.Idx := ix2 (⟨(j 0).val, (j 0).isLt⟩ : Fin 5000) (0 : Fin 1)
abbrev weightIn (j : S5000x64.Idx) (k : Fin 128) : S128x64.Idx := ix2 k (⟨(j 1).val, (j 1).isLt⟩ : Fin 64)

/-- The same at an index of the block. -/
theorem body_at (x : Vec Ideal S5000x128 .f32) (n : Vec Ideal S5000x1 .f32) (w : Vec Ideal S128x64 .bf16) (j : S5000x64.Idx) :
    k2_pay1 (F := Ideal) x n w j = ∑ k : Fin 128, (x (rowIn j k) * n (normIn j)) * w (weightIn j k) := by
  obtain ⟨p, q, rfl⟩ : ∃ (p : Fin 5000) (q : Fin 64), j = ix2 p q := ⟨j 0, j 1, eq_ix2 j⟩
  exact body_apply x n w p q

/-- One term of the sum: an entry of the rows' array scaled by a norm entry, against a weight. -/
def summand (X : S100000x128.Idx → EReal) (N : S100000x1.Idx → EReal) (W : S128x64.Idx → EReal)
    (a : S100000x128.Idx) (b : S100000x1.Idx) (d : S128x64.Idx) : EReal := (X a * N b) * W d

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the 20 points: the rows' window, the norm's window and the output's window sit at the point's
    own block of 5000 rows, at column block 0; the weights' window is the whole array at every point. -/
theorem block_indices : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (1 : Fin 2) = 0 :=
  (by decide +kernel : ∀ t : Fin grid2.N, _)

/-- Every one of the 20 row blocks is some point's. -/
theorem row_block_onto : ∀ b : Fin 20, ∃ t : Fin cfg2.N, win2_3.index t = ![b.val, 0] :=
  (by decide +kernel : ∀ b : Fin 20, ∃ t : Fin grid2.N, win2_3.index t = ![b.val, 0])

/-- What point `t` writes back is block `t` of the scaled linear map of the three arrays as the region finds them. -/
theorem flushed_eq (c : Dev nD) (t : Fin cfg2.N) :
    (dat2 (F := Ideal) V c).flushed 3 t
      = ((cfg2.win 3).blk t).view.read (Elt Ideal) (Spec.lin64 (V c main_v31) (V c main_v10) (V c main_v23)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S5000x1) zero_offsets, View.ld_unit_zero (S := S128x64) zero_offsets]
  obtain ⟨e0, e1, e2, e3, e4, e5, e6⟩ := block_indices t
  funext j
  show k2_pay1 (F := Ideal) (iblk2 V c 0 t) (iblk2 V c 1 t) (iblk2 V c 2 t) j
    = ∑ k : Fin 128, summand (V c main_v31) (V c main_v10) (V c main_v23) (Spec.rowAt64 (((cfg2.win 3).blk t).view.emb j) k)
        (Spec.col64 (((cfg2.win 3).blk t).view.emb j)) (Spec.wAt64 (((cfg2.win 3).blk t).view.emb j) k)
  rw [body_at]
  refine Finset.sum_congr rfl fun k _ => ?_
  show summand (V c main_v31) (V c main_v10) (V c main_v23) (((cfg2.win 0).blk t).view.emb (rowIn j k))
        (((cfg2.win 1).blk t).view.emb (normIn j)) (((cfg2.win 2).blk t).view.emb (weightIn j k)) = _
  have hx : ((cfg2.win 0).blk t).view.emb (rowIn j k) = Spec.rowAt64 (((cfg2.win 3).blk t).view.emb j) k := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have hn : ((cfg2.win 1).blk t).view.emb (normIn j) = Spec.col64 (((cfg2.win 3).blk t).view.emb j) := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  have hw : ((cfg2.win 2).blk t).view.emb (weightIn j k) = Spec.wAt64 (((cfg2.win 3).blk t).view.emb j) k := by
    funext a; apply Fin.ext
    match a with
    | ⟨0, _⟩ => show win2_2.index t (0 : Fin 2) * 128 + 1 * k.val = k.val; omega
    | ⟨1, _⟩ => show win2_2.index t (1 : Fin 2) * 64 + 1 * (j 1).val = win2_3.index t (1 : Fin 2) * 64 + 1 * (j 1).val; omega
  rw [hx, hn, hw]

/-- An index of the array is in point `t`'s block iff each coordinate is in the block's range on its axis. -/
theorem mem_block (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v32).slice (win2_3.rect t)).set ↔ _
  rw [View.set_slice_whole, Rect.mem_set_unit]
  exact Iff.rfl

/-- Row `r` lies in the block of point `r / 5000`: the 20 blocks cover the array. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := row_block_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The output array after the region: the scaled linear map of the three arrays it read. -/
theorem final2 (c : Dev nD) : (dat2 (F := Ideal) V c).arrAt 3 cfg2.N = Spec.lin64 (V c main_v31) (V c main_v10) (V c main_v23) :=
  (dat2 (F := Ideal) V c).arrAt_eq_of_cover 3 _ (fun t _ => flushed_eq V c t) covered

end Cert.KernelIdeal.Region2

end
-- ==== Proof.Region3.lean ====
/-
  The second affine region.  Every grid point t takes rows 5000·t … 5000·t + 4999 of a [100000 × 64] array, scales row r by
  the norm column's entry n[r] and adds the bias row b[q].  Read index by index, what the region leaves in its output array
  is Spec.aff64 of the three arrays it reads.
-/
import proofs.«425124_j8727373545893_1_alg».proof.Proof.Gen.KernelIdeal.Frame
import proofs.«425124_j8727373545893_1_alg».proof.Proof.Spec
import Idealize.ShloMosaic.Lib.Pipeline.Value
import Idealize.ShloMosaic.Lib.ValueIdx
import Idealize.ShloMosaic.Lib.ValueLayout

noncomputable section

namespace Cert.KernelIdeal.Region3

open Idealize.ShloMosaic Idealize.ShloMosaic.TcCoe Idealize.SL.Sem Cert.KernelIdeal Cert.KernelIdeal.Gen
open Idealize.ShloMosaic.ValueIdx

/-! ## The body's value at one index of a block -/

/-- A column [a × 1] broadcast to [a × b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At row p and column q of a block: x[p,q] · n[p] + b[q]. -/
theorem pay_at (x0 : Vec Ideal S5000x64 .f32) (x1 : Vec Ideal S5000x1 .f32) (x2 : Vec Ideal S1x64 .f32)
    (p : Fin 5000) (q : Fin 64) :
    k3_pay1 (F := Ideal) x0 x1 x2 (ix2 p q)
      = x0 (ix2 p q) * x1 (ix2 p (0 : Fin 1)) + x2 (ix2 (0 : Fin 1) q) := by
  unfold k3_pay1
  rw [addf_apply, mulf_apply, shapeCast_self, shapeCast_self, shapeCast_self,
    broadcastTo_a1_ab_apply, broadcastTo_1b_ab_apply]

/-- The norm column's entry for the row of a block index. -/
abbrev normAt (j : S5000x64.Idx) : S5000x1.Idx := fun a => match a with
  | ⟨0, _⟩ => ⟨(j 0).val, (j 0).isLt⟩
  | ⟨1, _⟩ => ⟨0, Nat.one_pos⟩
/-- The bias row's entry for the column of a block index. -/
abbrev biasAt (j : S5000x64.Idx) : S1x64.Idx := fun a => match a with
  | ⟨0, _⟩ => ⟨0, Nat.one_pos⟩
  | ⟨1, _⟩ => ⟨(j 1).val, (j 1).isLt⟩

/-- The body's value as one function of a block index. -/
theorem pay_eq (x0 : Vec Ideal S5000x64 .f32) (x1 : Vec Ideal S5000x1 .f32) (x2 : Vec Ideal S1x64 .f32) :
    k3_pay1 (F := Ideal) x0 x1 x2
      = fun j => x0 j * x1 (normAt j) + x2 (biasAt j) := by
  funext j
  obtain ⟨p, q, rfl⟩ : ∃ (p : Fin 5000) (q : Fin 64), j = ix2 p q := ⟨j 0, j 1, eq_ix2 j⟩
  rw [pay_at]
  have e1 : normAt (ix2 p q) = ix2 p (0 : Fin 1) := funext fun a => by
    match a with
    | ⟨0, _⟩ => rfl
    | ⟨1, _⟩ => rfl
  have e2 : biasAt (ix2 p q) = ix2 (0 : Fin 1) q := funext fun a => by
    match a with
    | ⟨0, _⟩ => rfl
    | ⟨1, _⟩ => rfl
  rw [e1, e2]

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 20 grid points: the array read, the norm column and the output move with the point on
    the row axis and stay at block 0 on the other; the bias row is the whole array at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the affine map of the three arrays. -/
theorem flushed_eq (c : Dev nD) (t : Fin cfg3.N) :
    (dat3 (F := Ideal) V c).flushed 3 t
      = ((cfg3.win 3).blk t).view.read (Elt Ideal) (Spec.aff64 (V c main_v36) (V c main_v21) (V c main_v25)) := by
  show (cfg3.win 3).cut (grid3.coords t) ((dat3 (F := Ideal) V c).after 3 t) = _
  rw [after3_3]
  unfold out3_3
  rw [View.canon_unit_zero zero_offsets]
  simp only [View.ld_unit_zero (S := S5000x64) zero_offsets, View.ld_unit_zero (S := S5000x1) zero_offsets,
    View.ld_unit_zero (S := S1x64) zero_offsets]
  rw [pay_eq]
  obtain ⟨e00, e01, e10, e11, e20, e21, e30, e31⟩ := idx_facts t
  funext j
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb (normAt j) = Spec.col64 (((cfg3.win 3).blk t).view.emb j) := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega
  have h2 : ((cfg3.win 2).blk t).view.emb (biasAt j) = Spec.bias64 (((cfg3.win 3).blk t).view.emb j) := by
    funext a; apply Fin.ext
    match a with
    | ⟨0, _⟩ => show win3_2.index t (0 : Fin 2) * 1 + 1 * 0 = 0; omega
    | ⟨1, _⟩ => show win3_2.index t (1 : Fin 2) * 64 + 1 * (j 1).val = win3_3.index t (1 : Fin 2) * 64 + 1 * (j 1).val; omega
  have key : ∀ (a0 : S100000x64.Idx → EReal) (a1 : S100000x1.Idx → EReal) (a2 : S1x64.Idx → EReal),
      a0 (((cfg3.win 0).blk t).view.emb j) * a1 (((cfg3.win 1).blk t).view.emb (normAt j))
          + a2 (((cfg3.win 2).blk t).view.emb (biasAt j))
        = a0 (((cfg3.win 3).blk t).view.emb j) * a1 (Spec.col64 (((cfg3.win 3).blk t).view.emb j))
          + a2 (Spec.bias64 (((cfg3.win 3).blk t).view.emb j)) := by
    intro a0 a1 a2
    rw [h0, h1, h2]
  exact key (V c main_v36) (V c main_v21) (V c main_v25)

/-- An index of the array is in point t's block iff each coordinate is in the block's range on its axis. -/
theorem mem_blk (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v37).slice (win3_3.rect t)).set ↔ _
  rw [View.set_slice_whole, Rect.mem_set_unit]
  exact Iff.rfl

/-- Row r of the array is in the block of point r / 5000. -/
theorem covered (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : grid3.N = 20 := N_3
  have ht : (i 0).val / 5000 < cfg3.N := by show _ < grid3.N; rw [hN]; omega
  obtain ⟨-, -, -, -, -, -, e30, e31⟩ := idx_facts ⟨(i 0).val / 5000, ht⟩
  refine ⟨⟨(i 0).val / 5000, ht⟩, flush3_3 _, ?_⟩
  rw [mem_blk]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, ht⟩ (1 : Fin 2) * 64 ≤ (i 1).val
      ∧ (i 1).val < win3_3.index ⟨(i 0).val / 5000, ht⟩ (1 : Fin 2) * 64 + 64
    rw [e31]; omega

/-- The output array after the region: the affine map of the three arrays, at every index. -/
theorem final3 (c : Dev nD) :
    (dat3 (F := Ideal) V c).arrAt 3 cfg3.N = Spec.aff64 (V c main_v36) (V c main_v21) (V c main_v25) :=
  (dat3 (F := Ideal) V c).arrAt_eq_of_cover 3 (Spec.aff64 (V c main_v36) (V c main_v21) (V c main_v25))
    (fun t _ => flushed_eq V c t) (fun i => covered i)

end Cert.KernelIdeal.Region3

end
-- ==== Proof.ClosedDefs.lean ====
/-
  The two results of the idealized kernel program as closed functions of the seven argument arrays: the hidden
  activations `z` (first graph convolution, positive part) and the output `out` (second graph convolution).  Each graph
  convolution scales the rows by the source-side norm, multiplies by the weights, takes each edge's source row, sums the
  rows per destination node, scales by the destination-side norm and adds the bias.
-/
import proofs.«425124_j8727373545893_1_alg».proof.Proof.Spec
import proofs.«425124_j8727373545893_1_alg».proof.Proof.HostSpec

noncomputable section

namespace Cert.KernelIdeal.Closed

open Idealize.ShloMosaic Cert.KernelIdeal Cert.KernelIdeal.Gen

/-- The norm of an index vector as the [nodes × 1] column the regions read. -/
def normCol (idx : IVec S1600000 32) : FVec Ideal S100000x1 .f32 :=
  shapeCast S100000x1 (HostSpec.nrm (F := Ideal) idx) shapeCasts_S100000_S100000x1

/-- The hidden activations. -/
def z (a0 : FVec Ideal S100000x128 .f32) (a1 a2 : IVec S1600000 32) (a3 : FVec Ideal S128x128 .f32) (a4 : FVec Ideal S128 .f32) :
    FVec Ideal S100000x128 .f32 :=
  Spec.affRelu128
    (HostSpec.agg128 (F := Ideal) (HostSpec.take128 (F := Ideal) (Spec.lin128 a0 (normCol a1) (truncf .bf16 a3 bitsLt_bf16_f32)) a1) a2)
    (normCol a2) (shapeCast S1x128 a4 shapeCasts_S128_S1x128)

/-- The output. -/
def out (a0 : FVec Ideal S100000x128 .f32) (a1 a2 : IVec S1600000 32) (a3 : FVec Ideal S128x128 .f32) (a4 : FVec Ideal S128 .f32)
    (a5 : FVec Ideal S128x64 .f32) (a6 : FVec Ideal S64 .f32) : FVec Ideal S100000x64 .f32 :=
  Spec.aff64
    (HostSpec.agg64 (F := Ideal) (HostSpec.take64 (F := Ideal) (Spec.lin64 (z a0 a1 a2 a3 a4) (normCol a1) (truncf .bf16 a5 bitsLt_bf16_f32)) a1) a2)
    (normCol a2) (shapeCast S1x64 a6 shapeCasts_S64_S1x64)

end Cert.KernelIdeal.Closed

end
-- ==== Proof.KernelSide.lean ====
/-
  The idealized kernel program's run with its two result arrays named: walking the segment boundaries back from the last
  one, each region's output array is its index-by-index function (the four region lemmas) of arrays that the host
  stretches before it computed from the launch memory, so the two results are the closed forms `Closed.out` and
  `Closed.z` of the seven argument arrays.
-/
import proofs.«425124_j8727373545893_1_alg».proof.Proof.RunVal
import proofs.«425124_j8727373545893_1_alg».proof.Proof.HostVals
import proofs.«425124_j8727373545893_1_alg».proof.Proof.Region0
import proofs.«425124_j8727373545893_1_alg».proof.Proof.Region1
import proofs.«425124_j8727373545893_1_alg».proof.Proof.Region2
import proofs.«425124_j8727373545893_1_alg».proof.Proof.Region3
import proofs.«425124_j8727373545893_1_alg».proof.Proof.ClosedDefs

set_option maxRecDepth 16384

noncomputable section

namespace Cert.KernelIdeal.Closed

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The hidden activations, of the launch memory's arguments. -/
abbrev zOf (c : Dev nD) : FVec Ideal S100000x128 .f32 :=
  z (m ((c : Thread nD τ).loc main_arg0)) (m ((c : Thread nD τ).loc main_arg1)) (m ((c : Thread nD τ).loc main_arg2)) (m ((c : Thread nD τ).loc main_arg3)) (m ((c : Thread nD τ).loc main_arg4))
/-- The output, of the launch memory's arguments. -/
abbrev outOf (c : Dev nD) : FVec Ideal S100000x64 .f32 :=
  out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- After the second region its output array holds the hidden activations. -/
theorem after_region1 (c : Dev nD) : W9 m ρ c (Proc.devRef .tc main_v31) = zOf m c := by
  rw [HostVals.W9_v31, Region1.final1 (V8 m ρ) c]
  dsimp only [V8]
  rw [HostVals.W8_v30, HostVals.W8_v21, HostVals.W8_v24, HostVals.W6_v26, HostVals.W6_arg1, HostVals.W6_arg2, HostVals.W6_v21, HostVals.W6_v24,
    Region0.final0 (V5 m ρ) c]
  dsimp only [V5]
  rw [HostVals.W5_arg0, HostVals.W5_v10, HostVals.W5_v22, HostVals.W5_arg1, HostVals.W5_arg2, HostVals.W5_v21, HostVals.W5_v24]
  rfl

/-- At the last boundary the second result buffer still holds them. -/
theorem final_z (c : Dev nD) : W13 m ρ c (Proc.devRef .tc main_v31) = zOf m c :=
  (HostVals.W13_v31 m ρ c).trans ((HostVals.W12_v31 m ρ c).trans ((HostVals.W10_v31 m ρ c).trans (after_region1 m ρ c)))

/-- At the last boundary the first result buffer holds the output. -/
theorem final_out (c : Dev nD) : W13 m ρ c (Proc.devRef .tc main_v37) = outOf m c := by
  rw [HostVals.W13_v37, Region3.final3 (V12 m ρ) c]
  dsimp only [V12]
  rw [HostVals.W12_v36, HostVals.W12_v21, HostVals.W12_v25, HostVals.W10_v32, HostVals.W10_arg1, HostVals.W10_arg2, HostVals.W10_v21, HostVals.W10_v25,
    Region2.final2 (V9 m ρ) c]
  dsimp only [V9]
  rw [after_region1, HostVals.W9_v10, HostVals.W9_v23, HostVals.W9_arg1, HostVals.W9_arg2, HostVals.W9_v21, HostVals.W9_v25,
    HostVals.W8_v10, HostVals.W8_v23, HostVals.W8_arg1, HostVals.W8_arg2, HostVals.W8_v21, HostVals.W8_v25,
    HostVals.W6_v10, HostVals.W6_v23, HostVals.W6_arg1, HostVals.W6_arg2, HostVals.W6_v21, HostVals.W6_v25,
    HostVals.W5_v10, HostVals.W5_v23, HostVals.W5_arg1, HostVals.W5_arg2, HostVals.W5_v21, HostVals.W5_v25]
  rfl

/-- Every weakly fair execution terminates with the two results at their closed forms and the arguments as launched. -/
theorem run : θ_run defs (onTc (τ := τ) (main (F := Ideal))) ⟨m, fun _ => 0, ρ⟩ (fun r => ∀ c : Dev nD,
      r.2.mem ((c.tc : Thread nD τ).loc main_v37) = outOf m c
      ∧ r.2.mem ((c.tc : Thread nD τ).loc main_v31) = zOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final_out m ρ c), (h c).2.1.trans (final_z m ρ c), (h c).2.2⟩)
    (Cert.KernelIdeal.GenP.run_val (F := Ideal) m ρ)

end Cert.KernelIdeal.Closed

end
-- ==== Proof.Bridge.lean ====
import proofs.«425124_j8727373545893_1_alg».proof.Proof.Gen.KernelIdeal
import proofs.«425124_j8727373545893_1_alg».proof.Proof.Gen.ReferenceIdeal
import proofs.«425124_j8727373545893_1_alg».proof.Proof.Spec
import proofs.«425124_j8727373545893_1_alg».proof.Proof.RefRead
import Idealize.ShloMosaic.PureOps.Ideal.Laws
import Idealize.ShloMosaic.Lib.Pipeline.Value
import Idealize.ShloMosaic.Lib.ValueIdx

noncomputable section

namespace Cert.Bridge

open Idealize.ShloMosaic Cert.ReferenceIdeal Cert.ReferenceIdeal.Gen

/-- The norm vector laid out as a column by a reshape is the same column a broadcast along axis 0 makes. -/
theorem normCol_eq {α : Type} (nv : S100000.Idx → α) :
    shapeCast Cert.KernelIdeal.S100000x1 nv Cert.KernelIdeal.Gen.shapeCasts_S100000_S100000x1
      = broadcastInDim S100000x1 ![0] bcast_S100000_S100000x1_0 nv := by
  funext i
  have hb := broadcastInDim_apply _ bcast_S100000_S100000x1_0 nv i (ReadP.idx_main_v20 i) (fun a => match a with
    | ⟨0, _⟩ => by show (i 0).val = if (100000 : Nat) = 1 then 0 else (i 0).val; rw [if_neg (by decide)])
  rw [hb]
  refine shapeCast_apply nv _ i (ReadP.idx_main_v20 i) ?_
  have h1 : (i 1).val < 1 := (i 1).isLt
  rw [Shape.rowMajor_val_two, Shape.rowMajor_val_one]
  show (i 0).val = (i 0).val * 1 + (i 1).val
  omega

/-- The bias vector laid out as a row by a reshape is the same row a broadcast along axis 1 makes. -/
theorem biasRow128_eq {α : Type} (b : S128.Idx → α) :
    shapeCast Cert.KernelIdeal.S1x128 b Cert.KernelIdeal.Gen.shapeCasts_S128_S1x128
      = broadcastInDim S1x128 ![1] bcast_S128_S1x128_1 b := by
  funext i
  have hb := broadcastInDim_apply _ bcast_S128_S1x128_1 b i (ReadP.idx_main_v37 i) (fun a => match a with
    | ⟨0, _⟩ => by show (i 1).val = if (128 : Nat) = 1 then 0 else (i 1).val; rw [if_neg (by decide)])
  rw [hb]
  refine shapeCast_apply b _ i (ReadP.idx_main_v37 i) ?_
  have h0 : (i 0).val < 1 := (i 0).isLt
  rw [Shape.rowMajor_val_two, Shape.rowMajor_val_one]
  show (i 1).val = (i 0).val * 128 + (i 1).val
  omega

theorem biasRow64_eq {α : Type} (b : S64.Idx → α) :
    shapeCast Cert.KernelIdeal.S1x64 b Cert.KernelIdeal.Gen.shapeCasts_S64_S1x64
      = broadcastInDim S1x64 ![1] bcast_S64_S1x64_1 b := by
  funext i
  have hb := broadcastInDim_apply _ bcast_S64_S1x64_1 b i (ReadP.idx_main_v58 i) (fun a => match a with
    | ⟨0, _⟩ => by show (i 1).val = if (64 : Nat) = 1 then 0 else (i 1).val; rw [if_neg (by decide)])
  rw [hb]
  refine shapeCast_apply b _ i (ReadP.idx_main_v58 i) ?_
  have h0 : (i 0).val < 1 := (i 0).isLt
  rw [Shape.rowMajor_val_two, Shape.rowMajor_val_one]
  show (i 1).val = (i 0).val * 64 + (i 1).val
  omega

/-- A column [rows × 1] spread over 128 columns reads, at an index, the column's entry for that row. -/
theorem spreadCol128_apply {α : Type} (c : S100000x1.Idx → α) (i : S100000x128.Idx) :
    broadcastInDim S100000x128 ![0, 1] bcast_S100000x1_S100000x128_0_1 c i = c (Cert.KernelIdeal.Spec.col128 i) :=
  broadcastInDim_apply _ bcast_S100000x1_S100000x128_0_1 c i (Cert.KernelIdeal.Spec.col128 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

theorem spreadCol64_apply {α : Type} (c : S100000x1.Idx → α) (i : S100000x64.Idx) :
    broadcastInDim S100000x64 ![0, 1] bcast_S100000x1_S100000x64_0_1 c i = c (Cert.KernelIdeal.Spec.col64 i) :=
  broadcastInDim_apply _ bcast_S100000x1_S100000x64_0_1 c i (Cert.KernelIdeal.Spec.col64 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- A row [1 × cols] spread over all rows reads, at an index, the row's entry for that column. -/
theorem spreadRow128_apply {α : Type} (r : S1x128.Idx → α) (i : S100000x128.Idx) :
    broadcastInDim S100000x128 ![0, 1] bcast_S1x128_S100000x128_0_1 r i = r (Cert.KernelIdeal.Spec.bias128 i) :=
  broadcastInDim_apply _ bcast_S1x128_S100000x128_0_1 r i (Cert.KernelIdeal.Spec.bias128 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

theorem spreadRow64_apply {α : Type} (r : S1x64.Idx → α) (i : S100000x64.Idx) :
    broadcastInDim S100000x64 ![0, 1] bcast_S1x64_S100000x64_0_1 r i = r (Cert.KernelIdeal.Spec.bias64 i) :=
  broadcastInDim_apply _ bcast_S1x64_S100000x64_0_1 r i (Cert.KernelIdeal.Spec.bias64 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- A scalar spread over the whole array reads the scalar everywhere. -/
theorem spreadScalar128_apply {α : Type} (z : S_.Idx → α) (i : S100000x128.Idx) :
    broadcastInDim S100000x128 ![] bcast_S_S100000x128 z i = z (fun a => a.elim0) :=
  broadcastInDim_apply _ bcast_S_S100000x128 z i (fun a => a.elim0) (fun a => a.elim0)

/-- The scaled linear map 128 → 128 is the host's product of the row-scaled array with the weights. -/
theorem lin128_eq (x : FVec Ideal S100000x128 .f32) (nv : FVec Ideal S100000 .f32) (w : FVec Ideal S128x128 .f32) :
    Cert.KernelIdeal.Spec.lin128 x (shapeCast Cert.KernelIdeal.S100000x1 nv Cert.KernelIdeal.Gen.shapeCasts_S100000_S100000x1)
        (truncf .bf16 w Cert.KernelIdeal.Gen.bitsLt_bf16_f32)
      = Host.dotGeneral dot_S100000x128_S128x128_S100000x128_1_0_0_1_n_n none
          (mulf x (broadcastInDim S100000x128 ![0, 1] bcast_S100000x1_S100000x128_0_1 (broadcastInDim S100000x1 ![0] bcast_S100000_S100000x1_0 nv))) w := by
  rw [normCol_eq nv]
  generalize broadcastInDim S100000x1 ![0] bcast_S100000_S100000x1_0 nv = c
  funext j
  simp only [Host.dotGeneral]
  rw [Ideal.dotGeneral_apply, ← Equiv.sum_comp (ValueIdx.contrEquiv1 dot_S100000x128_S128x128_S100000x128_1_0_0_1_n_n 128 rfl rfl).symm]
  show ∑ k : Fin 128, (x (Cert.KernelIdeal.Spec.rowAt128 j k) * c (Cert.KernelIdeal.Spec.col128 j))
      * truncf .bf16 w Cert.KernelIdeal.Gen.bitsLt_bf16_f32 (Cert.KernelIdeal.Spec.wAt128 j k) = _
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx j ((ValueIdx.contrEquiv1 dot_S100000x128_S128x128_S100000x128_1_0_0_1_n_n 128 rfl rfl).symm k) = Cert.KernelIdeal.Spec.rowAt128 j k := funext fun a => Fin.ext (by
    match a with
    | ⟨0, _⟩ => exact ReadP.lhs_main_v23_0 _ _
    | ⟨1, _⟩ => exact (ReadP.lhs_main_v23_1 _ _).trans hk)
  have er : dot_S100000x128_S128x128_S100000x128_1_0_0_1_n_n.rhsIdx j ((ValueIdx.contrEquiv1 dot_S100000x128_S128x128_S100000x128_1_0_0_1_n_n 128 rfl rfl).symm k) = Cert.KernelIdeal.Spec.wAt128 j k := funext fun a => Fin.ext (by
    match a with
    | ⟨0, _⟩ => exact (ReadP.rhs_main_v23_0 _ _).trans hk
    | ⟨1, _⟩ => exact ReadP.rhs_main_v23_1 _ _)
  rw [el, er]
  show _ = (x (Cert.KernelIdeal.Spec.rowAt128 j k)
      * broadcastInDim S100000x128 ![0, 1] bcast_S100000x1_S100000x128_0_1 c (Cert.KernelIdeal.Spec.rowAt128 j k))
      * w (Cert.KernelIdeal.Spec.wAt128 j k)
  rw [spreadCol128_apply]
  have hc : Cert.KernelIdeal.Spec.col128 (Cert.KernelIdeal.Spec.rowAt128 j k) = Cert.KernelIdeal.Spec.col128 j :=
    funext fun a => Fin.ext (by
      match a with
      | ⟨0, _⟩ => rfl
      | ⟨1, _⟩ => rfl)
  rw [hc]
  rfl

/-- The scaled linear map 128 → 64 is the host's product of the row-scaled array with the weights. -/
theorem lin64_eq (x : FVec Ideal S100000x128 .f32) (nv : FVec Ideal S100000 .f32) (w : FVec Ideal S128x64 .f32) :
    Cert.KernelIdeal.Spec.lin64 x (shapeCast Cert.KernelIdeal.S100000x1 nv Cert.KernelIdeal.Gen.shapeCasts_S100000_S100000x1)
        (truncf .bf16 w Cert.KernelIdeal.Gen.bitsLt_bf16_f32)
      = Host.dotGeneral dot_S100000x128_S128x64_S100000x64_1_0_0_1_n_n none
          (mulf x (broadcastInDim S100000x128 ![0, 1] bcast_S100000x1_S100000x128_0_1 (broadcastInDim S100000x1 ![0] bcast_S100000_S100000x1_0 nv))) w := by
  rw [normCol_eq nv]
  generalize broadcastInDim S100000x1 ![0] bcast_S100000_S100000x1_0 nv = c
  funext j
  simp only [Host.dotGeneral]
  rw [Ideal.dotGeneral_apply, ← Equiv.sum_comp (ValueIdx.contrEquiv1 dot_S100000x128_S128x64_S100000x64_1_0_0_1_n_n 128 rfl rfl).symm]
  show ∑ k : Fin 128, (x (Cert.KernelIdeal.Spec.rowAt64 j k) * c (Cert.KernelIdeal.Spec.col64 j))
      * truncf .bf16 w Cert.KernelIdeal.Gen.bitsLt_bf16_f32 (Cert.KernelIdeal.Spec.wAt64 j k) = _
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx j ((ValueIdx.contrEquiv1 dot_S100000x128_S128x64_S100000x64_1_0_0_1_n_n 128 rfl rfl).symm k) = Cert.KernelIdeal.Spec.rowAt64 j k := funext fun a => Fin.ext (by
    match a with
    | ⟨0, _⟩ => exact ReadP.lhs_main_v44_0 _ _
    | ⟨1, _⟩ => exact (ReadP.lhs_main_v44_1 _ _).trans hk)
  have er : dot_S100000x128_S128x64_S100000x64_1_0_0_1_n_n.rhsIdx j ((ValueIdx.contrEquiv1 dot_S100000x128_S128x64_S100000x64_1_0_0_1_n_n 128 rfl rfl).symm k) = Cert.KernelIdeal.Spec.wAt64 j k := funext fun a => Fin.ext (by
    match a with
    | ⟨0, _⟩ => exact (ReadP.rhs_main_v44_0 _ _).trans hk
    | ⟨1, _⟩ => exact ReadP.rhs_main_v44_1 _ _)
  rw [el, er]
  show _ = (x (Cert.KernelIdeal.Spec.rowAt64 j k)
      * broadcastInDim S100000x128 ![0, 1] bcast_S100000x1_S100000x128_0_1 c (Cert.KernelIdeal.Spec.rowAt64 j k))
      * w (Cert.KernelIdeal.Spec.wAt64 j k)
  rw [spreadCol128_apply]
  have hc : Cert.KernelIdeal.Spec.col128 (Cert.KernelIdeal.Spec.rowAt64 j k) = Cert.KernelIdeal.Spec.col64 j :=
    funext fun a => Fin.ext (by
      match a with
      | ⟨0, _⟩ => rfl
      | ⟨1, _⟩ => rfl)
  rw [hc]
  rfl

/-- Scale by the norm column, add the bias row, maximum with the zero word: the host's pointwise chain read at an index. -/
theorem affRelu128_eq (x : FVec Ideal S100000x128 .f32) (nv : FVec Ideal S100000 .f32) (b : FVec Ideal S128 .f32) :
    Cert.KernelIdeal.Spec.affRelu128 x (shapeCast Cert.KernelIdeal.S100000x1 nv Cert.KernelIdeal.Gen.shapeCasts_S100000_S100000x1)
        (shapeCast Cert.KernelIdeal.S1x128 b Cert.KernelIdeal.Gen.shapeCasts_S128_S1x128)
      = maximumf (addf (mulf x (broadcastInDim S100000x128 ![0, 1] bcast_S100000x1_S100000x128_0_1 (broadcastInDim S100000x1 ![0] bcast_S100000_S100000x1_0 nv)))
            (broadcastInDim S100000x128 ![0, 1] bcast_S1x128_S100000x128_0_1 (broadcastInDim S1x128 ![1] bcast_S128_S1x128_1 b)))
          (broadcastInDim S100000x128 ![] bcast_S_S100000x128 (constant S_ .f32 0x00000000#32)) := by
  rw [normCol_eq nv, biasRow128_eq b]
  generalize broadcastInDim S100000x1 ![0] bcast_S100000_S100000x1_0 nv = c
  generalize broadcastInDim S1x128 ![1] bcast_S128_S1x128_1 b = r
  funext j
  show max (x j * c (Cert.KernelIdeal.Spec.col128 j) + r (Cert.KernelIdeal.Spec.bias128 j)) (Ideal.ofBits .f32 0x00000000#32)
    = max (x j * broadcastInDim S100000x128 ![0, 1] bcast_S100000x1_S100000x128_0_1 c j
            + broadcastInDim S100000x128 ![0, 1] bcast_S1x128_S100000x128_0_1 r j)
          (broadcastInDim S100000x128 ![] bcast_S_S100000x128 (constant (F := Ideal) S_ .f32 0x00000000#32) j)
  rw [spreadCol128_apply, spreadRow128_apply, spreadScalar128_apply]
  rfl

/-- Scale by the norm column and add the bias row: the host's pointwise chain read at an index. -/
theorem aff64_eq (x : FVec Ideal S100000x64 .f32) (nv : FVec Ideal S100000 .f32) (b : FVec Ideal S64 .f32) :
    Cert.KernelIdeal.Spec.aff64 x (shapeCast Cert.KernelIdeal.S100000x1 nv Cert.KernelIdeal.Gen.shapeCasts_S100000_S100000x1)
        (shapeCast Cert.KernelIdeal.S1x64 b Cert.KernelIdeal.Gen.shapeCasts_S64_S1x64)
      = addf (mulf x (broadcastInDim S100000x64 ![0, 1] bcast_S100000x1_S100000x64_0_1 (broadcastInDim S100000x1 ![0] bcast_S100000_S100000x1_0 nv)))
            (broadcastInDim S100000x64 ![0, 1] bcast_S1x64_S100000x64_0_1 (broadcastInDim S1x64 ![1] bcast_S64_S1x64_1 b)) := by
  rw [normCol_eq nv, biasRow64_eq b]
  generalize broadcastInDim S100000x1 ![0] bcast_S100000_S100000x1_0 nv = c
  generalize broadcastInDim S1x64 ![1] bcast_S64_S1x64_1 b = r
  funext j
  show x j * c (Cert.KernelIdeal.Spec.col64 j) + r (Cert.KernelIdeal.Spec.bias64 j)
    = x j * broadcastInDim S100000x64 ![0, 1] bcast_S100000x1_S100000x64_0_1 c j
        + broadcastInDim S100000x64 ![0, 1] bcast_S1x64_S100000x64_0_1 r j
  rw [spreadCol64_apply, spreadRow64_apply]

end Cert.Bridge

end
-- ==== Proof.TakeInRange.lean ====
/-
  The index-range conjunct of the precondition, read back, and what it gives the masked gather.  The precondition's
  last conjunct is the conjunction over all edges e of  -100000 ≤ src[e]  and  src[e] < 100000  (signed).  Under it,
  the wrapped index (src[e] + 100000 when src[e] < 0, else src[e]) lies in [0, 99999]: for negative src[e] the sum is
  in [0, 99999] and does not wrap, and a non-negative src[e] is below 100000 as it stands.  So the range mask over the
  wrapped column is one at every edge, and a select under an all-ones mask is its first branch: the masked take is the
  plain gather at the wrapped column.
-/
import proofs.«425124_j8727373545893_1_alg».proof.Proof.HostSpec
import proofs.«425124_j8727373545893_1_alg».proof.Pre_finite_inputs
import proofs.«425124_j8727373545893_1_alg».proof.Proof.Gen.Pre_finite_inputs
import Idealize.ShloMosaic.Lib.ReduceAll
import Idealize.ShloMosaic.Lib.StableHlo.Predicate

noncomputable section

namespace Cert.KernelIdeal.TakeInRange

open Idealize.ShloMosaic Cert.KernelIdeal Cert.KernelIdeal.Gen

variable {F : FTy → Type} [FloatOps F]

/-- A one-bit word made from a boolean is one exactly when the boolean holds. -/
theorem ofBool_one (b : Bool) : BitVec.ofBool b = 1#1 ↔ b = true := by cases b <;> decide

/-- The two bounds as signed values. -/
theorem toInt_lo : (4294867296#32 : BitVec 32).toInt = -100000 := by decide
theorem toInt_hi : (100000#32 : BitVec 32).toInt = 100000 := by decide

/-- One element of the range test, read as two signed inequalities. -/
theorem range_bit (s : BitVec 32)
    (h : IntOp.andi (IntOp.cmpi .sge s 4294867296#32) (IntOp.cmpi .slt s 100000#32) = 1#1) :
    -100000 ≤ s.toInt ∧ s.toInt < 100000 := by
  obtain ⟨hl, hr⟩ := IntOp.andi_eq_one.1 h
  simp only [IntOp.cmpi, ofBool_one, BitVec.sle, BitVec.slt, decide_eq_true_eq, toInt_lo, toInt_hi] at hl hr
  exact ⟨hl, hr⟩

/-- A word in [-100000, 100000), with 100000 added when it is negative, lies in [0, 99999]:
    a negative s gives s + 100000 in [0, 99999] with no wrap, a non-negative s is below 100000 already. -/
theorem wrap_word (s : BitVec 32) (h1 : -100000 ≤ s.toInt) (h2 : s.toInt < 100000) :
    IntOp.andi
      (IntOp.cmpi .sge (Scalar.select (IntOp.cmpi .slt s 0#32) (IntOp.addi s 100000#32) s) 0#32)
      (IntOp.cmpi .sle (Scalar.select (IntOp.cmpi .slt s 0#32) (IntOp.addi s 100000#32) s) 99999#32) = 1#1 := by
  have h0 : (0#32 : BitVec 32).toInt = 0 := by decide
  have h9 : (99999#32 : BitVec 32).toInt = 99999 := by decide
  have key : 0 ≤ (Scalar.select (IntOp.cmpi .slt s 0#32) (IntOp.addi s 100000#32) s).toInt ∧
      (Scalar.select (IntOp.cmpi .slt s 0#32) (IntOp.addi s 100000#32) s).toInt ≤ 99999 := by
    unfold Scalar.select IntOp.cmpi IntOp.addi
    by_cases hneg : s.toInt < 0
    · have hb : BitVec.ofBool (s.slt 0#32) = 1 := (ofBool_one _).2 (by simp only [BitVec.slt, h0, decide_eq_true_eq]; exact hneg)
      rw [if_pos hb, BitVec.toInt_add, toInt_hi]
      have : (s.toInt + 100000).bmod (2 ^ 32) = s.toInt + 100000 := by
        apply Int.bmod_eq_of_le <;> omega
      rw [this]; omega
    · have hb : ¬ BitVec.ofBool (s.slt 0#32) = 1 := fun hc => hneg (by
        have := (ofBool_one _).1 hc
        simpa only [BitVec.slt, h0, decide_eq_true_eq] using this)
      rw [if_neg hb]; omega
  refine IntOp.andi_eq_one.2 ⟨?_, ?_⟩
  · simp only [IntOp.cmpi, ofBool_one, BitVec.sle, decide_eq_true_eq, h0]; exact key.1
  · simp only [IntOp.cmpi, ofBool_one, BitVec.sle, decide_eq_true_eq, h9]; exact key.2

/-- A left fold by `and`, from one, over one-bit words that are all one, is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_one f l fun n hn => h n (List.mem_cons_of_mem _ hn)

/-- A select whose condition bit is one is its first branch. -/
theorem select_one {α : Type} (c : BitVec 1) (a b : α) (hc : c = 1#1) : Scalar.select c a b = a := by
  unfold Scalar.select; exact if_pos hc

/-- The precondition's last conjunct bounds every source index: -100000 ≤ src[e] < 100000 as signed words. -/
theorem range_of_pre (a0 : FVec F S100000x128 .f32) (a1 a2 : IVec S1600000 32) (a3 : FVec F S128x128 .f32) (a4 : FVec F S128 .f32)
    (a5 : FVec F S128x64 .f32) (a6 : FVec F S64 .f32)
    (h : Cert.Pre_finite_inputs.fn (F := F) a0 a1 a2 a3 a4 a5 a6 = fun _ => 1#1) :
    ∀ e : S1600000.Idx, -100000 ≤ (a1 e).toInt ∧ (a1 e).toInt < 100000 := by
  intro e
  -- a shape of rank zero has exactly one index
  haveI : Subsingleton Cert.Pre_finite_inputs.S_.Idx := ⟨fun a b => funext fun d => d.elim0⟩
  have h0 := congrFun h (fun a => a.elim0)
  dsimp only [Cert.Pre_finite_inputs.fn, Cert.Pre_finite_inputs.fn_part1] at h0
  have h1 := (IntOp.andi_eq_one.1 h0).2
  have h2 := Host.reduce_andi_all _ _ _ _ _ h1 e
  exact range_bit (a1 e) h2

/-- Every entry of the range test on the wrapped column is one. -/
theorem wrapped_bit (a1 : IVec S1600000 32)
    (h : ∀ e : S1600000.Idx, -100000 ≤ (a1 e).toInt ∧ (a1 e).toInt < 100000) (i : S1600000x1.Idx) :
    andi (cmpi .sge (HostSpec.wrappedCol a1) (broadcastInDim S1600000x1 ![] bcast_S_S1600000x1 (constantI S_ 32 0#32)))
      (cmpi .sle (HostSpec.wrappedCol a1) (broadcastInDim S1600000x1 ![0, 1] bcast_S1x1_S1600000x1_0_1
        (broadcastInDim S1x1 ![1] bcast_S1_S1x1_1 (constantI S1 32 99999#32)))) i = 1#1 :=
  wrap_word (a1 _) (h _).1 (h _).2

/-- The mask over the wrapped column is one at every edge. -/
theorem inRange_one (a1 : IVec S1600000 32)
    (h : ∀ e : S1600000.Idx, -100000 ≤ (a1 e).toInt ∧ (a1 e).toInt < 100000) (e : S1600000.Idx) :
    HostSpec.inRange (HostSpec.wrappedCol a1) e = 1#1 := by
  unfold HostSpec.inRange
  rw [Host.reduce_eq_foldl]
  exact foldl_andi_one _ _ fun i _ => wrapped_bit a1 h i

/-- With every source index in [-100000, 100000) every wrapped index is in [0, 99999], the mask is all ones, and the
    masked take is the plain gather at the wrapped column. -/
theorem take128_eq (X : FVec F S100000x128 .f32) (a1 : IVec S1600000 32)
    (h : ∀ e : S1600000.Idx, -100000 ≤ (a1 e).toInt ∧ (a1 e).toInt < 100000) :
    HostSpec.take128 X a1 = Host.gather gather_S100000x128_S1600000x1_S1600000x128_1_0_n_n_0_1_1128 X (HostSpec.wrappedCol a1) := by
  funext j
  unfold HostSpec.take128 select
  refine select_one _ _ _ ?_
  unfold broadcastInDim
  exact inRange_one a1 h _

theorem take64_eq (X : FVec F S100000x64 .f32) (a1 : IVec S1600000 32)
    (h : ∀ e : S1600000.Idx, -100000 ≤ (a1 e).toInt ∧ (a1 e).toInt < 100000) :
    HostSpec.take64 X a1 = Host.gather gather_S100000x64_S1600000x1_S1600000x64_1_0_n_n_0_1_164 X (HostSpec.wrappedCol a1) := by
  funext j
  unfold HostSpec.take64 select
  refine select_one _ _ _ ?_
  unfold broadcastInDim
  exact inRange_one a1 h _

end Cert.KernelIdeal.TakeInRange

end
-- ==== Proof.RefSide.lean ====
/-
  The closed forms of the kernel's two results are the reference program's two result stages, wherever every source index
  lies in [-100000, 100000): there the masked take is the plain gather at the wrapped index column, each region's
  index-by-index function is the reference's whole-array term for the same step, and what is left on the two sides is one
  term, operation for operation (the same scatter-adds, gathers, norms and constants).
-/
import proofs.«425124_j8727373545893_1_alg».proof.Proof.ClosedDefs
import proofs.«425124_j8727373545893_1_alg».proof.Proof.Bridge
import proofs.«425124_j8727373545893_1_alg».proof.Proof.TakeInRange
import proofs.«425124_j8727373545893_1_alg».proof.Proof.RefRead

set_option maxRecDepth 16384

noncomputable section

namespace Cert.KernelIdeal.Closed

open Idealize.ShloMosaic Cert.KernelIdeal Cert.KernelIdeal.Gen
open Cert.ReferenceIdeal.ReadP (val_main_v40 val_main_v60)

theorem z_eq_ref (a0 : FVec Ideal S100000x128 .f32) (a1 a2 : IVec S1600000 32) (a3 : FVec Ideal S128x128 .f32) (a4 : FVec Ideal S128 .f32)
    (hr : ∀ e : S1600000.Idx, -100000 ≤ (a1 e).toInt ∧ (a1 e).toInt < 100000) :
    z a0 a1 a2 a3 a4 = val_main_v40 (F := Ideal) a0 a1 a2 a3 a4 := by
  unfold z normCol
  rw [Cert.Bridge.affRelu128_eq, TakeInRange.take128_eq _ _ hr, Cert.Bridge.lin128_eq]
  rfl

theorem out_eq_ref (a0 : FVec Ideal S100000x128 .f32) (a1 a2 : IVec S1600000 32) (a3 : FVec Ideal S128x128 .f32) (a4 : FVec Ideal S128 .f32)
    (a5 : FVec Ideal S128x64 .f32) (a6 : FVec Ideal S64 .f32)
    (hr : ∀ e : S1600000.Idx, -100000 ≤ (a1 e).toInt ∧ (a1 e).toInt < 100000) :
    out a0 a1 a2 a3 a4 a5 a6 = val_main_v60 (F := Ideal) a0 a1 a2 a3 a4 a5 a6 := by
  unfold out normCol
  rw [Cert.Bridge.aff64_eq, TakeInRange.take64_eq _ _ hr, Cert.Bridge.lin64_eq, z_eq_ref a0 a1 a2 a3 a4 hr]
  rfl

end Cert.KernelIdeal.Closed

end
-- ==== Proof.lean ====
/-
  A two-layer graph convolution: rows scaled by the source-side norm (the inverse square root of the out-degree) and
  multiplied by the weights, each edge taking its source node's row, rows summed per destination node, scaled by the
  destination-side norm, plus the bias; a positive part between the layers.  The kernel program runs the dense steps as four
  pipelined regions over blocks of 5000 rows and the gathers and segment sums on the host; the reference is plain array
  code.  Over the extended reals a change of float format is the identity, so the two programs are the same composition
  of operations once (i) each region's array is read as one function of its inputs, index by index (a sum over the 128
  contraction entries for the two products; a product, a sum and a maximum for the two affine steps), and (ii) the
  kernel's gather, which fills a row whose wrapped index is out of range with the fill word, is seen to be the
  reference's plain gather: the precondition keeps every source index in [-100000, 100000), so every wrapped index is
  in range.  No algebraic law beyond that is used, and finiteness of the float inputs is not needed.
  The three frames: the two kernel programs' are the generated frame proofs; the reference's is its run with the
  results dropped.  The idealization rewrote nothing, so there is nothing to preserve.
-/
import proofs.«425124_j8727373545893_1_alg».proof.Defs
import proofs.«425124_j8727373545893_1_alg».proof.Proof.Gen.Kernel
import proofs.«425124_j8727373545893_1_alg».proof.Proof.Gen.Kernel.Skeleton
import proofs.«425124_j8727373545893_1_alg».proof.Proof.Gen.Kernel.Launch
import proofs.«425124_j8727373545893_1_alg».proof.Proof.Gen.Kernel.Points
import proofs.«425124_j8727373545893_1_alg».proof.Proof.Gen.Kernel.Frame
import proofs.«425124_j8727373545893_1_alg».proof.Proof.Gen.KernelIdeal
import proofs.«425124_j8727373545893_1_alg».proof.Proof.Gen.KernelIdeal.Skeleton
import proofs.«425124_j8727373545893_1_alg».proof.Proof.Gen.KernelIdeal.Launch
import proofs.«425124_j8727373545893_1_alg».proof.Proof.Gen.KernelIdeal.Points
import proofs.«425124_j8727373545893_1_alg».proof.Proof.Gen.KernelIdeal.Frame
import proofs.«425124_j8727373545893_1_alg».proof.Proof.Gen.ReferenceIdeal
import proofs.«425124_j8727373545893_1_alg».proof.Proof.Gen.Pre_finite_inputs
import proofs.«425124_j8727373545893_1_alg».proof.Proof.KernelSide
import proofs.«425124_j8727373545893_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its generated run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with the output at `Closed.out` and the hidden activations at `Closed.z` of the kernel's argument
    arrays: the kernel by its run, the reference because its two result stages are those closed forms where the source
    indices are in range, its arguments being the kernel's. -/
theorem algebraic : Cert.algebraic_KernelIdeal_ReferenceIdeal := by
  intro m ρ m' ρ' hpre hagree
  have hr : ∀ c : Dev Cert.KernelIdeal.nD, ∀ e : Cert.KernelIdeal.S1600000.Idx,
      -100000 ≤ ((m ((c.tc : Thread Cert.KernelIdeal.nD Cert.KernelIdeal.τ).loc Cert.KernelIdeal.main_arg1) : IVec Cert.KernelIdeal.S1600000 32) e).toInt
      ∧ ((m ((c.tc : Thread Cert.KernelIdeal.nD Cert.KernelIdeal.τ).loc Cert.KernelIdeal.main_arg1) : IVec Cert.KernelIdeal.S1600000 32) e).toInt < 100000 :=
    fun c => Cert.KernelIdeal.TakeInRange.range_of_pre (F := Ideal) _ _ _ _ _ _ _ (hpre c)
  refine ⟨fun c => Cert.KernelIdeal.Closed.outOf m c, fun c => Cert.KernelIdeal.Closed.zOf m c, Cert.KernelIdeal.Closed.run m ρ, ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · rw [Cert.ReferenceIdeal.ReadP.val_main_v60_eq, (hagree c).1, (hagree c).2.1, (hagree c).2.2.1, (hagree c).2.2.2.1,
      (hagree c).2.2.2.2.1, (hagree c).2.2.2.2.2.1, (hagree c).2.2.2.2.2.2]
    exact (Cert.KernelIdeal.Closed.out_eq_ref _ _ _ _ _ _ _ (hr c)).symm
  · refine (Cert.ReferenceIdeal.ReadP.val_main_v40_eq _ _ _ _ _).trans ?_
    rw [(hagree c).1, (hagree c).2.1, (hagree c).2.2.1, (hagree c).2.2.2.1, (hagree c).2.2.2.2.1]
    exact (Cert.KernelIdeal.Closed.z_eq_ref _ _ _ _ _ (hr c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
